-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S256x512 : Shape := ⟨2, ![256, 512]⟩
abbrev S8x32x8192 : Shape := ⟨3, ![8, 32, 8192]⟩
abbrev S_ : Shape := ⟨0, ![]⟩
abbrev S8 : Shape := ⟨1, ![8]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S8x32x8192 : S_.BroadcastsInDim S8x32x8192 (![] : Fin 0 → Fin S8x32x8192.rank)
  reducesTo_S8x32x8192_S_d0_1_2 : S8x32x8192.ReducesTo [0, 1, 2] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S65536x512 .f32) (main_arg1 : FVec F S256x512 .f32) (main_arg2 : FVec F S8x32x8192 .f32) (main_arg3 : FVec F S_ .f32) (main_arg4 : IVec S8 32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S8x32x8192 .f32 := Host.absf main_arg2
  let main_cst_2 : FVec F S_ .f32 := constant S_ .f32 0x7F800000#32
  let main_v10 : FVec F S8x32x8192 .f32 := broadcastInDim S8x32x8192 ![] bcast_S_S8x32x8192 main_cst_2
  let main_v11 : IVec S8x32x8192 1 := cmpf .olt main_v9 main_v10
  let main_c_3 : IVec S_ 1 := constantI S_ 1 1#1
  let main_v12 : IVec S_ 1 := (fun x v => Host.reduce IntOp.andi x v reducesTo_S8x32x8192_S_d0_1_2 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S65536x512 : Shape := ⟨2, ![65536, 512]⟩
abbrev S256x512 : Shape := ⟨2, ![256, 512]⟩
abbrev S8x32x8192 : Shape := ⟨3, ![8, 32, 8192]⟩
abbrev S_ : Shape := ⟨0, ![]⟩
abbrev S8 : Shape := ⟨1, ![8]⟩
abbrev S8x32x512 : Shape := ⟨3, ![8, 32, 512]⟩
abbrev S2048x512 : Shape := ⟨2, ![2048, 512]⟩
abbrev S1x32x2048 : Shape := ⟨3, ![1, 32, 2048]⟩
abbrev S1x32x512 : Shape := ⟨3, ![1, 32, 512]⟩
abbrev S32x512 : Shape := ⟨2, ![32, 512]⟩
abbrev S32x2048 : Shape := ⟨2, ![32, 2048]⟩
abbrev S8x32 : Shape := ⟨2, ![8, 32]⟩
abbrev S256x1 : Shape := ⟨2, ![256, 1]⟩
abbrev S256 : Shape := ⟨1, ![256]⟩
abbrev S512x256 : Shape := ⟨2, ![512, 256]⟩
abbrev S256x256 : Shape := ⟨2, ![256, 256]⟩
abbrev S256x2 : Shape := ⟨2, ![256, 2]⟩

abbrev nBuf : Space → Nat
  | .hbm => 140
  | .vmem => 7
  | .smem => 0
  | _ => 0

abbrev hbmTy0_0 (i : Nat) : BufTy := match i % 128 with
  | 0 => ⟨S65536x512, .f32⟩
  | 1 => ⟨S256x512, .f32⟩
  | 2 => ⟨S8x32x8192, .f32⟩
  | 3 => ⟨S_, .f32⟩
  | 4 => ⟨S8, .i32⟩
  | 5 => ⟨S8x32x512, .f32⟩
  | 6 => ⟨S256x512, .f32⟩
  | 7 => ⟨S_, .f32⟩
  | 8 => ⟨S8x32, .f32⟩
  | 9 => ⟨S256x1, .f32⟩
  | 10 => ⟨S256, .f32⟩
  | 11 => ⟨S_, .f32⟩
  | 12 => ⟨S256, .f32⟩
  | 13 => ⟨S256, .i1⟩
  | 14 => ⟨S_, .f32⟩
  | 15 => ⟨S256x1, .f32⟩
  | 16 => ⟨S256x1, .f32⟩
  | 17 => ⟨S256x512, .f32⟩
  | 18 => ⟨S256x512, .f32⟩
  | 19 => ⟨S512x256, .f32⟩
  | 20 => ⟨S256x256, .f32⟩
  | 21 => ⟨S_, .f32⟩
  | 22 => ⟨S256x256, .f32⟩
  | 23 => ⟨S256x256, .f32⟩
  | 24 => ⟨S256, .i32⟩
  | 25 => ⟨S256, .i1⟩
  | 26 => ⟨S_, .f32⟩
  | 27 => ⟨S256, .f32⟩
  | 28 => ⟨S_, .f32⟩
  | 29 => ⟨S256, .f32⟩
  | 30 => ⟨S256, .f32⟩
  | 31 => ⟨S256x1, .f32⟩
  | 32 => ⟨S256x256, .f32⟩
  | 33 => ⟨S256x256, .f32⟩
  | 34 => ⟨S256x256, .f32⟩
  | 35 => ⟨S_, .f32⟩
  | 36 => ⟨S256, .f32⟩
  | 37 => ⟨S256x1, .f32⟩
  | 38 => ⟨S256x1, .f32⟩
  | 39 => ⟨S256x256, .f32⟩
  | 40 => ⟨S256x256, .f32⟩
  | 41 => ⟨S_, .i32⟩
  | 42 => ⟨S256, .i32⟩
  | 43 => ⟨S256, .i1⟩
  | 44 => ⟨S_, .i32⟩
  | 45 => ⟨S256, .i32⟩
  | 46 => ⟨S256, .i32⟩
  | 47 => ⟨S256, .i32⟩
  | 48 => ⟨S_, .i32⟩
  | 49 => ⟨S256, .i32⟩
  | 50 => ⟨S256, .i1⟩
  | 51 => ⟨S_, .i32⟩
  | 52 => ⟨S256, .i32⟩
  | 53 => ⟨S256, .i32⟩
  | 54 => ⟨S256, .i32⟩
  | 55 => ⟨S256x1, .i32⟩
  | 56 => ⟨S256x1, .i32⟩
  | 57 => ⟨S256x2, .i32⟩
  | 58 => ⟨S256, .f32⟩
  | 59 => ⟨S256, .f32⟩
  | 60 => ⟨S_, .f32⟩
  | 61 => ⟨S_, .f32⟩
  | 62 => ⟨S256, .f32⟩
  | 63 => ⟨S256, .f32⟩
  | 64 => ⟨S256x256, .f32⟩
  | 65 => ⟨S_, .f32⟩
  | 66 => ⟨S256, .f32⟩
  | 67 => ⟨S_, .f32⟩
  | 68 => ⟨S256, .f32⟩
  | 69 => ⟨S256, .f32⟩
  | 70 => ⟨S256x1, .f32⟩
  | 71 => ⟨S256x256, .f32⟩
  | 72 => ⟨S256x256, .f32⟩
  | 73 => ⟨S256x256, .f32⟩
  | 74 => ⟨S_, .f32⟩
  | 75 => ⟨S256, .f32⟩
  | 76 => ⟨S256x1, .f32⟩
  | 77 => ⟨S256x1, .f32⟩
  | 78 => ⟨S256x256, .f32⟩
  | 79 => ⟨S256x256, .f32⟩
  | 80 => ⟨S_, .i32⟩
  | 81 => ⟨S256, .i32⟩
  | 82 => ⟨S256, .i1⟩
  | 83 => ⟨S_, .i32⟩
  | 84 => ⟨S256, .i32⟩
  | 85 => ⟨S256, .i32⟩
  | 86 => ⟨S256, .i32⟩
  | 87 => ⟨S_, .i32⟩
  | 88 => ⟨S256, .i32⟩
  | 89 => ⟨S256, .i1⟩
  | 90 => ⟨S_, .i32⟩
  | 91 => ⟨S256, .i32⟩
  | 92 => ⟨S256, .i32⟩
  | 93 => ⟨S256, .i32⟩
  | 94 => ⟨S256x1, .i32⟩
  | 95 => ⟨S256x1, .i32⟩
  | 96 => ⟨S256x2, .i32⟩
  | 97 => ⟨S256, .f32⟩
  | 98 => ⟨S256, .f32⟩
  | 99 => ⟨S_, .f32⟩
  | 100 => ⟨S_, .f32⟩
  | 101 => ⟨S256, .f32⟩
  | 102 => ⟨S256, .f32⟩
  | 103 => ⟨S_, .f32⟩
  | 104 => ⟨S256, .f32⟩
  | 105 => ⟨S256, .i1⟩
  | 106 => ⟨S256, .i32⟩
  | 107 => ⟨S_, .i32⟩
  | 108 => ⟨S_, .i32⟩
  | 109 => ⟨S_, .i32⟩
  | 110 => ⟨S_, .i1⟩
  | 111 => ⟨S_, .f32⟩
  | 112 => ⟨S_, .f32⟩
  | 113 => ⟨S_, .i32⟩
  | 114 => ⟨S_, .i32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S256, .f32⟩
  | 122 => ⟨S256, .i1⟩
  | 123 => ⟨S256, .i32⟩
  | 124 => ⟨S_, .i32⟩
  | 125 => ⟨S_, .i32⟩
  | 126 => ⟨S_, .i32⟩
  | 127 => ⟨S_, .i1⟩
  | _ => ⟨S65536x512, .f32⟩

abbrev hbmTy0_1 (i : Nat) : BufTy := match i % 128 with
  | 0 => ⟨S_, .f32⟩
  | 1 => ⟨S_, .f32⟩
  | 2 => ⟨S_, .i32⟩
  | 3 => ⟨S_, .i32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | _ => ⟨S65536x512, .f32⟩

abbrev hbmTy (i : Nat) : BufTy := match i / 128 with
  | 0 => hbmTy0_0 i
  | 1 => hbmTy0_1 i
  | _ => ⟨S65536x512, .f32⟩

abbrev bufTy : (tb : Table) → Fin (tcTables nBuf tb) → BufTy
  | .hbm, ⟨i, _⟩ => hbmTy i
  | .local _ .vmem, ⟨0, _⟩ => ⟨S2048x512, .f32⟩
  | .local _ .vmem, ⟨1, _⟩ => ⟨S2048x512, .f32⟩
  | .local _ .vmem, ⟨2, _⟩ => ⟨S1x32x2048, .f32⟩
  | .local _ .vmem, ⟨3, _⟩ => ⟨S1x32x2048, .f32⟩
  | .local _ .vmem, ⟨4, _⟩ => ⟨S1x32x512, .f32⟩
  | .local _ .vmem, ⟨5, _⟩ => ⟨S1x32x512, .f32⟩
  | .local _ .vmem, ⟨6, _⟩ => ⟨S32x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_call0_cst_0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_cst_1 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_3 : Ref sig .tc := ⟨.hbm, 48, rfl⟩
abbrev main_v24 : Ref sig .tc := ⟨.hbm, 49, rfl⟩
abbrev main_v25 : Ref sig .tc := ⟨.hbm, 50, rfl⟩
abbrev main_c_4 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_call1_v0 : Ref sig .tc := ⟨.hbm, 61, rfl⟩
abbrev main_call1_v1 : Ref sig .tc := ⟨.hbm, 62, rfl⟩
abbrev main_v34 : Ref sig .tc := ⟨.hbm, 63, rfl⟩
abbrev main_v35 : Ref sig .tc := ⟨.hbm, 64, rfl⟩
abbrev main_call2_cst : Ref sig .tc := ⟨.hbm, 65, rfl⟩
abbrev main_call2_v0 : Ref sig .tc := ⟨.hbm, 66, rfl⟩
abbrev main_call2_cst_0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_cst_1 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_v36 : Ref sig .tc := ⟨.hbm, 79, rfl⟩
abbrev main_c_6 : Ref sig .tc := ⟨.hbm, 80, rfl⟩
abbrev main_v37 : Ref sig .tc := ⟨.hbm, 81, rfl⟩
abbrev main_v38 : Ref sig .tc := ⟨.hbm, 82, rfl⟩
abbrev main_c_7 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_c_8 : Ref sig .tc := ⟨.hbm, 87, rfl⟩
abbrev main_v42 : Ref sig .tc := ⟨.hbm, 88, rfl⟩
abbrev main_v43 : Ref sig .tc := ⟨.hbm, 89, rfl⟩
abbrev main_c_9 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_cst_10 : Ref sig .tc := ⟨.hbm, 99, rfl⟩
abbrev main_call3_v0 : Ref sig .tc := ⟨.hbm, 100, rfl⟩
abbrev main_call3_v1 : Ref sig .tc := ⟨.hbm, 101, rfl⟩
abbrev main_v52 : Ref sig .tc := ⟨.hbm, 102, rfl⟩
abbrev main_cst_11 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_c_12 : Ref sig .tc := ⟨.hbm, 107, rfl⟩
abbrev main_v56 : Ref sig .tc := ⟨.hbm, 108, rfl⟩
abbrev main_c_13 : Ref sig .tc := ⟨.hbm, 109, rfl⟩
abbrev main_v57 : Ref sig .tc := ⟨.hbm, 110, rfl⟩
abbrev main_cst_14 : Ref sig .tc := ⟨.hbm, 111, rfl⟩
abbrev main_v58 : Ref sig .tc := ⟨.hbm, 112, rfl⟩
abbrev main_c_15 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_cst_16 : Ref sig .tc := ⟨.hbm, 117, rfl⟩
abbrev main_call4_v0 : Ref sig .tc := ⟨.hbm, 118, rfl⟩
abbrev main_v62 : Ref sig .tc := ⟨.hbm, 119, rfl⟩
abbrev main_cst_17 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_c_18 : Ref sig .tc := ⟨.hbm, 124, rfl⟩
abbrev main_v66 : Ref sig .tc := ⟨.hbm, 125, rfl⟩
abbrev main_c_19 : Ref sig .tc := ⟨.hbm, 126, rfl⟩
abbrev main_v67 : Ref sig .tc := ⟨.hbm, 127, rfl⟩
abbrev main_cst_20 : Ref sig .tc := ⟨.hbm, 128, rfl⟩
abbrev main_v68 : Ref sig .tc := ⟨.hbm, 129, rfl⟩
abbrev main_c_21 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_cst_22 : Ref sig .tc := ⟨.hbm, 134, rfl⟩
abbrev main_call5_v0 : Ref sig .tc := ⟨.hbm, 135, rfl⟩
abbrev main_v72 : Ref sig .tc := ⟨.hbm, 136, rfl⟩
abbrev main_v73 : Ref sig .tc := ⟨.hbm, 137, rfl⟩
abbrev main_cst_23 : Ref sig .tc := ⟨.hbm, 138, rfl⟩
abbrev main_v74 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S1x32x2048_S1x32x2048_0_0_0 : ∀ a, (![0, 0, 0] : Fin 3 → Nat) a + S1x32x2048.size a ≤ S1x32x2048.size a
  h_S1x32x2048 : 0 < S1x32x2048.numel
  shapeCasts_S1x32x2048_S32x2048 : S1x32x2048.ShapeCasts S32x2048
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S1x32x512 : S32x512.ShapeCasts S1x32x512
  shapeCasts_S8x32x512_S256x512 : S8x32x512.ShapeCasts S256x512
  reducesTo_S8x32x8192_S8x32_d2 : S8x32x8192.ReducesTo [2] S8x32
  h_S_ : 0 < S_.numel
  shapeCasts_S8x32_S256x1 : S8x32.ShapeCasts S256x1
  shapeCasts_S256x1_S256 : S256x1.ShapeCasts S256
  bcast_S_S256 : S_.BroadcastsInDim S256 (![] : Fin 0 → Fin S256.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  transposes_S256x512_S512x256_1_0 : S256x512.Transposes [1, 0] S512x256
  bcast_S_S256x256 : S_.BroadcastsInDim S256x256 (![] : Fin 0 → Fin S256x256.rank)
  reducesTo_S256x256_S256_d1 : S256x256.ReducesTo [1] S256
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  concatenates_S256x1_S256x1_S256x2_d1 : Shape.Concatenates [S256x1, S256x1] S256x2 1
  transposes_S256x256_S256x256_1_0 : S256x256.Transposes [1, 0] S256x256
  natLt_1_32 : 1 < 32
  reducesTo_S256_S_d0 : S256.ReducesTo [0] S_
  dot_S32x2048_S2048x512_S32x512_1_0_0_1_n_n_wf : DotDims.WF S32x2048 S2048x512 S32x512 [1] [0] [0] [1] [] []
  dot_S256x512_S512x256_S256x256_1_0_0_1_n_n_wf : DotDims.WF S256x512 S512x256 S256x256 [1] [0] [0] [1] [] []
  gather_S256x256_S256x2_S256_n_01_n_n_01_1_11_wf : GatherDims.WF S256x256 S256x2 S256 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x2048.size a ≤ S8x32x8192.size a
  hwx0_1 : ∀ i : grid0.Coords, EltTy.bits .f32 = 32 ∨ (Rect.block (s := S8x32x8192) S1x32x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x512.size a ≤ S8x32x512.size a
  hwx0_2 : ∀ i : grid0.Coords, EltTy.bits .f32 = 32 ∨ (Rect.block (s := S8x32x512) S1x32x512.size (cc0_transform_2 i) (hinb0_2 i)).WholeWords (EltTy.packing .f32)

variable [Facts₀]

def dot_S32x2048_S2048x512_S32x512_1_0_0_1_n_n : DotDims S32x2048 S2048x512 S32x512 where
  lhsContracting := [1]
  rhsContracting := [0]
  lhsNonContracting := [0]
  rhsNonContracting := [1]
  lhsBatch := []
  rhsBatch := []
  wf := dot_S32x2048_S2048x512_S32x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def gather_S256x256_S256x2_S256_n_01_n_n_01_1_11 : GatherDims S256x256 S256x2 S256 where
  offsetDims := []
  collapsedSliceDims := [0, 1]
  operandBatchingDims := []
  startIndicesBatchingDims := []
  startIndexMap := [0, 1]
  indexVectorDim := 1
  sliceSizes := ![1, 1]
  wf := gather_S256x256_S256x2_S256_n_01_n_n_01_1_11_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x32x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536x512 : Shape := ⟨2, ![65536, 512]⟩
abbrev S256x512 : Shape := ⟨2, ![256, 512]⟩
abbrev S8x32x8192 : Shape := ⟨3, ![8, 32, 8192]⟩
abbrev S_ : Shape := ⟨0, ![]⟩
abbrev S8 : Shape := ⟨1, ![8]⟩
abbrev S8x8192x512 : Shape := ⟨3, ![8, 8192, 512]⟩
abbrev S8x32x512 : Shape := ⟨3, ![8, 32, 512]⟩
abbrev S8x32 : Shape := ⟨2, ![8, 32]⟩
abbrev S256x1 : Shape := ⟨2, ![256, 1]⟩
abbrev S256 : Shape := ⟨1, ![256]⟩
abbrev S512x256 : Shape := ⟨2, ![512, 256]⟩
abbrev S256x256 : Shape := ⟨2, ![256, 256]⟩
abbrev S256x2 : Shape := ⟨2, ![256, 2]⟩

abbrev nBuf : Space → Nat
  | .hbm => 141
  | .vmem => 0
  | .smem => 0
  | _ => 0

abbrev hbmTy0_0 (i : Nat) : BufTy := match i % 128 with
  | 0 => ⟨S65536x512, .f32⟩
  | 1 => ⟨S256x512, .f32⟩
  | 2 => ⟨S8x32x8192, .f32⟩
  | 3 => ⟨S_, .f32⟩
  | 4 => ⟨S8, .i32⟩
  | 5 => ⟨S8x8192x512, .f32⟩
  | 6 => ⟨S8x32x512, .f32⟩
  | 7 => ⟨S256x512, .f32⟩
  | 8 => ⟨S_, .f32⟩
  | 9 => ⟨S8x32, .f32⟩
  | 10 => ⟨S256x1, .f32⟩
  | 11 => ⟨S256, .f32⟩
  | 12 => ⟨S_, .f32⟩
  | 13 => ⟨S256, .f32⟩
  | 14 => ⟨S256, .i1⟩
  | 15 => ⟨S_, .f32⟩
  | 16 => ⟨S256x1, .f32⟩
  | 17 => ⟨S256x1, .f32⟩
  | 18 => ⟨S256x512, .f32⟩
  | 19 => ⟨S256x512, .f32⟩
  | 20 => ⟨S512x256, .f32⟩
  | 21 => ⟨S256x256, .f32⟩
  | 22 => ⟨S_, .f32⟩
  | 23 => ⟨S256x256, .f32⟩
  | 24 => ⟨S256x256, .f32⟩
  | 25 => ⟨S256, .i32⟩
  | 26 => ⟨S256, .i1⟩
  | 27 => ⟨S_, .f32⟩
  | 28 => ⟨S256, .f32⟩
  | 29 => ⟨S_, .f32⟩
  | 30 => ⟨S256, .f32⟩
  | 31 => ⟨S256, .f32⟩
  | 32 => ⟨S256x1, .f32⟩
  | 33 => ⟨S256x256, .f32⟩
  | 34 => ⟨S256x256, .f32⟩
  | 35 => ⟨S256x256, .f32⟩
  | 36 => ⟨S_, .f32⟩
  | 37 => ⟨S256, .f32⟩
  | 38 => ⟨S256x1, .f32⟩
  | 39 => ⟨S256x1, .f32⟩
  | 40 => ⟨S256x256, .f32⟩
  | 41 => ⟨S256x256, .f32⟩
  | 42 => ⟨S_, .i32⟩
  | 43 => ⟨S256, .i32⟩
  | 44 => ⟨S256, .i1⟩
  | 45 => ⟨S_, .i32⟩
  | 46 => ⟨S256, .i32⟩
  | 47 => ⟨S256, .i32⟩
  | 48 => ⟨S256, .i32⟩
  | 49 => ⟨S_, .i32⟩
  | 50 => ⟨S256, .i32⟩
  | 51 => ⟨S256, .i1⟩
  | 52 => ⟨S_, .i32⟩
  | 53 => ⟨S256, .i32⟩
  | 54 => ⟨S256, .i32⟩
  | 55 => ⟨S256, .i32⟩
  | 56 => ⟨S256x1, .i32⟩
  | 57 => ⟨S256x1, .i32⟩
  | 58 => ⟨S256x2, .i32⟩
  | 59 => ⟨S256, .f32⟩
  | 60 => ⟨S256, .f32⟩
  | 61 => ⟨S_, .f32⟩
  | 62 => ⟨S_, .f32⟩
  | 63 => ⟨S256, .f32⟩
  | 64 => ⟨S256, .f32⟩
  | 65 => ⟨S256x256, .f32⟩
  | 66 => ⟨S_, .f32⟩
  | 67 => ⟨S256, .f32⟩
  | 68 => ⟨S_, .f32⟩
  | 69 => ⟨S256, .f32⟩
  | 70 => ⟨S256, .f32⟩
  | 71 => ⟨S256x1, .f32⟩
  | 72 => ⟨S256x256, .f32⟩
  | 73 => ⟨S256x256, .f32⟩
  | 74 => ⟨S256x256, .f32⟩
  | 75 => ⟨S_, .f32⟩
  | 76 => ⟨S256, .f32⟩
  | 77 => ⟨S256x1, .f32⟩
  | 78 => ⟨S256x1, .f32⟩
  | 79 => ⟨S256x256, .f32⟩
  | 80 => ⟨S256x256, .f32⟩
  | 81 => ⟨S_, .i32⟩
  | 82 => ⟨S256, .i32⟩
  | 83 => ⟨S256, .i1⟩
  | 84 => ⟨S_, .i32⟩
  | 85 => ⟨S256, .i32⟩
  | 86 => ⟨S256, .i32⟩
  | 87 => ⟨S256, .i32⟩
  | 88 => ⟨S_, .i32⟩
  | 89 => ⟨S256, .i32⟩
  | 90 => ⟨S256, .i1⟩
  | 91 => ⟨S_, .i32⟩
  | 92 => ⟨S256, .i32⟩
  | 93 => ⟨S256, .i32⟩
  | 94 => ⟨S256, .i32⟩
  | 95 => ⟨S256x1, .i32⟩
  | 96 => ⟨S256x1, .i32⟩
  | 97 => ⟨S256x2, .i32⟩
  | 98 => ⟨S256, .f32⟩
  | 99 => ⟨S256, .f32⟩
  | 100 => ⟨S_, .f32⟩
  | 101 => ⟨S_, .f32⟩
  | 102 => ⟨S256, .f32⟩
  | 103 => ⟨S256, .f32⟩
  | 104 => ⟨S_, .f32⟩
  | 105 => ⟨S256, .f32⟩
  | 106 => ⟨S256, .i1⟩
  | 107 => ⟨S256, .i32⟩
  | 108 => ⟨S_, .i32⟩
  | 109 => ⟨S_, .i32⟩
  | 110 => ⟨S_, .i32⟩
  | 111 => ⟨S_, .i1⟩
  | 112 => ⟨S_, .f32⟩
  | 113 => ⟨S_, .f32⟩
  | 114 => ⟨S_, .i32⟩
  | 115 => ⟨S_, .i32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S256, .f32⟩
  | 123 => ⟨S256, .i1⟩
  | 124 => ⟨S256, .i32⟩
  | 125 => ⟨S_, .i32⟩
  | 126 => ⟨S_, .i32⟩
  | 127 => ⟨S_, .i32⟩
  | _ => ⟨S65536x512, .f32⟩

abbrev hbmTy0_1 (i : Nat) : BufTy := match i % 128 with
  | 0 => ⟨S_, .i1⟩
  | 1 => ⟨S_, .f32⟩
  | 2 => ⟨S_, .f32⟩
  | 3 => ⟨S_, .i32⟩
  | 4 => ⟨S_, .i32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | _ => ⟨S65536x512, .f32⟩

abbrev hbmTy (i : Nat) : BufTy := match i / 128 with
  | 0 => hbmTy0_0 i
  | 1 => hbmTy0_1 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_call0_cst_0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_cst_1 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_c_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_3 : Ref sig .tc := ⟨.hbm, 49, rfl⟩
abbrev main_v25 : Ref sig .tc := ⟨.hbm, 50, rfl⟩
abbrev main_v26 : Ref sig .tc := ⟨.hbm, 51, rfl⟩
abbrev main_c_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_call1_v0 : Ref sig .tc := ⟨.hbm, 62, rfl⟩
abbrev main_call1_v1 : Ref sig .tc := ⟨.hbm, 63, rfl⟩
abbrev main_v35 : Ref sig .tc := ⟨.hbm, 64, rfl⟩
abbrev main_v36 : Ref sig .tc := ⟨.hbm, 65, rfl⟩
abbrev main_call2_cst : Ref sig .tc := ⟨.hbm, 66, rfl⟩
abbrev main_call2_v0 : Ref sig .tc := ⟨.hbm, 67, rfl⟩
abbrev main_call2_cst_0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_cst_1 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_v37 : Ref sig .tc := ⟨.hbm, 80, rfl⟩
abbrev main_c_6 : Ref sig .tc := ⟨.hbm, 81, rfl⟩
abbrev main_v38 : Ref sig .tc := ⟨.hbm, 82, rfl⟩
abbrev main_v39 : Ref sig .tc := ⟨.hbm, 83, rfl⟩
abbrev main_c_7 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_c_8 : Ref sig .tc := ⟨.hbm, 88, rfl⟩
abbrev main_v43 : Ref sig .tc := ⟨.hbm, 89, rfl⟩
abbrev main_v44 : Ref sig .tc := ⟨.hbm, 90, rfl⟩
abbrev main_c_9 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_cst_10 : Ref sig .tc := ⟨.hbm, 100, rfl⟩
abbrev main_call3_v0 : Ref sig .tc := ⟨.hbm, 101, rfl⟩
abbrev main_call3_v1 : Ref sig .tc := ⟨.hbm, 102, rfl⟩
abbrev main_v53 : Ref sig .tc := ⟨.hbm, 103, rfl⟩
abbrev main_cst_11 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_c_12 : Ref sig .tc := ⟨.hbm, 108, rfl⟩
abbrev main_v57 : Ref sig .tc := ⟨.hbm, 109, rfl⟩
abbrev main_c_13 : Ref sig .tc := ⟨.hbm, 110, rfl⟩
abbrev main_v58 : Ref sig .tc := ⟨.hbm, 111, rfl⟩
abbrev main_cst_14 : Ref sig .tc := ⟨.hbm, 112, rfl⟩
abbrev main_v59 : Ref sig .tc := ⟨.hbm, 113, rfl⟩
abbrev main_c_15 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_cst_16 : Ref sig .tc := ⟨.hbm, 118, rfl⟩
abbrev main_call4_v0 : Ref sig .tc := ⟨.hbm, 119, rfl⟩
abbrev main_v63 : Ref sig .tc := ⟨.hbm, 120, rfl⟩
abbrev main_cst_17 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_c_18 : Ref sig .tc := ⟨.hbm, 125, rfl⟩
abbrev main_v67 : Ref sig .tc := ⟨.hbm, 126, rfl⟩
abbrev main_c_19 : Ref sig .tc := ⟨.hbm, 127, rfl⟩
abbrev main_v68 : Ref sig .tc := ⟨.hbm, 128, rfl⟩
abbrev main_cst_20 : Ref sig .tc := ⟨.hbm, 129, rfl⟩
abbrev main_v69 : Ref sig .tc := ⟨.hbm, 130, rfl⟩
abbrev main_c_21 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_cst_22 : Ref sig .tc := ⟨.hbm, 135, rfl⟩
abbrev main_call5_v0 : Ref sig .tc := ⟨.hbm, 136, rfl⟩
abbrev main_v73 : Ref sig .tc := ⟨.hbm, 137, rfl⟩
abbrev main_v74 : Ref sig .tc := ⟨.hbm, 138, rfl⟩
abbrev main_cst_23 : Ref sig .tc := ⟨.hbm, 139, rfl⟩
abbrev main_v75 : Ref sig .tc := ⟨.hbm, 140, rfl⟩

abbrev nD : Nat := 1
abbrev τ : Topo := Topo.v7x

variable {F : FTy → Type} [FloatOps F]

class Facts₀ : Prop where
  shapeCasts_S65536x512_S8x8192x512 : S65536x512.ShapeCasts S8x8192x512
  shapeCasts_S8x32x512_S256x512 : S8x32x512.ShapeCasts S256x512
  reducesTo_S8x32x8192_S8x32_d2 : S8x32x8192.ReducesTo [2] S8x32
  h_S_ : 0 < S_.numel
  shapeCasts_S8x32_S256x1 : S8x32.ShapeCasts S256x1
  shapeCasts_S256x1_S256 : S256x1.ShapeCasts S256
  bcast_S_S256 : S_.BroadcastsInDim S256 (![] : Fin 0 → Fin S256.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  transposes_S256x512_S512x256_1_0 : S256x512.Transposes [1, 0] S512x256
  bcast_S_S256x256 : S_.BroadcastsInDim S256x256 (![] : Fin 0 → Fin S256x256.rank)
  reducesTo_S256x256_S256_d1 : S256x256.ReducesTo [1] S256
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  concatenates_S256x1_S256x1_S256x2_d1 : Shape.Concatenates [S256x1, S256x1] S256x2 1
  transposes_S256x256_S256x256_1_0 : S256x256.Transposes [1, 0] S256x256
  natLt_1_32 : 1 < 32
  reducesTo_S256_S_d0 : S256.ReducesTo [0] S_
  dot_S8x32x8192_S8x8192x512_S8x32x512_2_1_1_2_0_0_wf : DotDims.WF S8x32x8192 S8x8192x512 S8x32x512 [2] [1] [1] [2] [0] [0]
  dot_S256x512_S512x256_S256x256_1_0_0_1_n_n_wf : DotDims.WF S256x512 S512x256 S256x256 [1] [0] [0] [1] [] []
  gather_S256x256_S256x2_S256_n_01_n_n_01_1_11_wf : GatherDims.WF S256x256 S256x2 S256 [] [0, 1] [] [0, 1] [] 1 ![1, 1]

variable [Facts₀]

def dot_S8x32x8192_S8x8192x512_S8x32x512_2_1_1_2_0_0 : DotDims S8x32x8192 S8x8192x512 S8x32x512 where
  lhsContracting := [2]
  rhsContracting := [1]
  lhsNonContracting := [1]
  rhsNonContracting := [2]
  lhsBatch := [0]
  rhsBatch := [0]
  wf := dot_S8x32x8192_S8x8192x512_S8x32x512_2_1_1_2_0_0_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def gather_S256x256_S256x2_S256_n_01_n_n_01_1_11 : GatherDims S256x256 S256x2 S256 where
  offsetDims := []
  collapsedSliceDims := [0, 1]
  operandBatchingDims := []
  startIndicesBatchingDims := []
  startIndexMap := [0, 1]
  indexVectorDim := 1
  sliceSizes := ![1, 1]
  wf := gather_S256x256_S256x2_S256_n_01_n_n_01_1_11_wf

class Facts : Prop extends Facts₀ where

variable [Facts]
-- ==== Proof.K.Around.lean ====
/-
  The program around its one kernel region. The region is the first item of the program; everything after it is
  thirteen stretches of host operations (134 in all) that read the region's result, two of the argument arrays and
  the scalar, and write only buffers of their own. This module states what the launch needs of those stretches:
  the program IS the region continued by them, they touch only unscoped device buffers, allocate nothing, and
  write neither an array the region stages nor an argument.
-/
import proofs.«120339_j28896539967630_1_alg».proof.Proof.Gen.Kernel.Launch
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host stretches after the region, in program order. -/
abbrev tailOps : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12]

/-- A core's buffer contents when the region is entered: no host operation comes before it, so the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! Each host operation writes exactly one buffer, its own result, and allocates nothing. The arguments are the
    buffers of index 0 to 4 and the region's result has index 5; every result of a host operation has index at
    least 6. So no host operation writes an argument or the region's result. -/

/-- An operation whose one written buffer has index at least six writes only a buffer of index at least six. -/
theorem high_of_eq {y : Ref sig .tc} (hy : 6 ≤ y.idx.val) (b : Ref sig .tc)
    (h : Proc.devRef (τ := τ) .tc b = Proc.devRef .tc y) : 6 ≤ b.idx.val := by
  rw [Proc.devRef_injective _ h]; exact hy

/-- No operation of this stretch allocates. -/
theorem hostOps1_fresh : (hostOps1 : List (HloOp τ sig (Elt F))).Forall fun op => op.fresh = ∅ := by
  simp only [List.Forall]; repeat' constructor
/-- Each operation of this stretch writes only a buffer of index at least six. -/
theorem hostOps1_high : (hostOps1 : List (HloOp τ sig (Elt F))).Forall fun op =>
    ∀ b : Ref sig .tc, Proc.devRef .tc b ∈ op.writes → 6 ≤ b.idx.val := by
  simp only [hostOps1, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_1_fresh : (hostOps1_1 : List (HloOp τ sig (Elt F))).Forall fun op => op.fresh = ∅ := by
  simp only [List.Forall]; repeat' constructor
/-- Each operation of this stretch writes only a buffer of index at least six. -/
theorem hostOps1_1_high : (hostOps1_1 : List (HloOp τ sig (Elt F))).Forall fun op =>
    ∀ b : Ref sig .tc, Proc.devRef .tc b ∈ op.writes → 6 ≤ b.idx.val := by
  simp only [hostOps1_1, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_2_fresh : (hostOps1_2 : List (HloOp τ sig (Elt F))).Forall fun op => op.fresh = ∅ := by
  simp only [List.Forall]; repeat' constructor
/-- Each operation of this stretch writes only a buffer of index at least six. -/
theorem hostOps1_2_high : (hostOps1_2 : List (HloOp τ sig (Elt F))).Forall fun op =>
    ∀ b : Ref sig .tc, Proc.devRef .tc b ∈ op.writes → 6 ≤ b.idx.val := by
  simp only [hostOps1_2, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_3_fresh : (hostOps1_3 : List (HloOp τ sig (Elt F))).Forall fun op => op.fresh = ∅ := by
  simp only [List.Forall]; repeat' constructor
/-- Each operation of this stretch writes only a buffer of index at least six. -/
theorem hostOps1_3_high : (hostOps1_3 : List (HloOp τ sig (Elt F))).Forall fun op =>
    ∀ b : Ref sig .tc, Proc.devRef .tc b ∈ op.writes → 6 ≤ b.idx.val := by
  simp only [hostOps1_3, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_4_fresh : (hostOps1_4 : List (HloOp τ sig (Elt F))).Forall fun op => op.fresh = ∅ := by
  simp only [List.Forall]; repeat' constructor
/-- Each operation of this stretch writes only a buffer of index at least six. -/
theorem hostOps1_4_high : (hostOps1_4 : List (HloOp τ sig (Elt F))).Forall fun op =>
    ∀ b : Ref sig .tc, Proc.devRef .tc b ∈ op.writes → 6 ≤ b.idx.val := by
  simp only [hostOps1_4, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_5_fresh : (hostOps1_5 : List (HloOp τ sig (Elt F))).Forall fun op => op.fresh = ∅ := by
  simp only [List.Forall]; repeat' constructor
/-- Each operation of this stretch writes only a buffer of index at least six. -/
theorem hostOps1_5_high : (hostOps1_5 : List (HloOp τ sig (Elt F))).Forall fun op =>
    ∀ b : Ref sig .tc, Proc.devRef .tc b ∈ op.writes → 6 ≤ b.idx.val := by
  simp only [hostOps1_5, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_6_fresh : (hostOps1_6 : List (HloOp τ sig (Elt F))).Forall fun op => op.fresh = ∅ := by
  simp only [List.Forall]; repeat' constructor
/-- Each operation of this stretch writes only a buffer of index at least six. -/
theorem hostOps1_6_high : (hostOps1_6 : List (HloOp τ sig (Elt F))).Forall fun op =>
    ∀ b : Ref sig .tc, Proc.devRef .tc b ∈ op.writes → 6 ≤ b.idx.val := by
  simp only [hostOps1_6, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_7_fresh : (hostOps1_7 : List (HloOp τ sig (Elt F))).Forall fun op => op.fresh = ∅ := by
  simp only [List.Forall]; repeat' constructor
/-- Each operation of this stretch writes only a buffer of index at least six. -/
theorem hostOps1_7_high : (hostOps1_7 : List (HloOp τ sig (Elt F))).Forall fun op =>
    ∀ b : Ref sig .tc, Proc.devRef .tc b ∈ op.writes → 6 ≤ b.idx.val := by
  simp only [hostOps1_7, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_8_fresh : (hostOps1_8 : List (HloOp τ sig (Elt F))).Forall fun op => op.fresh = ∅ := by
  simp only [List.Forall]; repeat' constructor
/-- Each operation of this stretch writes only a buffer of index at least six. -/
theorem hostOps1_8_high : (hostOps1_8 : List (HloOp τ sig (Elt F))).Forall fun op =>
    ∀ b : Ref sig .tc, Proc.devRef .tc b ∈ op.writes → 6 ≤ b.idx.val := by
  simp only [hostOps1_8, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_9_fresh : (hostOps1_9 : List (HloOp τ sig (Elt F))).Forall fun op => op.fresh = ∅ := by
  simp only [List.Forall]; repeat' constructor
/-- Each operation of this stretch writes only a buffer of index at least six. -/
theorem hostOps1_9_high : (hostOps1_9 : List (HloOp τ sig (Elt F))).Forall fun op =>
    ∀ b : Ref sig .tc, Proc.devRef .tc b ∈ op.writes → 6 ≤ b.idx.val := by
  simp only [hostOps1_9, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_10_fresh : (hostOps1_10 : List (HloOp τ sig (Elt F))).Forall fun op => op.fresh = ∅ := by
  simp only [List.Forall]; repeat' constructor
/-- Each operation of this stretch writes only a buffer of index at least six. -/
theorem hostOps1_10_high : (hostOps1_10 : List (HloOp τ sig (Elt F))).Forall fun op =>
    ∀ b : Ref sig .tc, Proc.devRef .tc b ∈ op.writes → 6 ≤ b.idx.val := by
  simp only [hostOps1_10, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_11_fresh : (hostOps1_11 : List (HloOp τ sig (Elt F))).Forall fun op => op.fresh = ∅ := by
  simp only [List.Forall]; repeat' constructor
/-- Each operation of this stretch writes only a buffer of index at least six. -/
theorem hostOps1_11_high : (hostOps1_11 : List (HloOp τ sig (Elt F))).Forall fun op =>
    ∀ b : Ref sig .tc, Proc.devRef .tc b ∈ op.writes → 6 ≤ b.idx.val := by
  simp only [hostOps1_11, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_12_fresh : (hostOps1_12 : List (HloOp τ sig (Elt F))).Forall fun op => op.fresh = ∅ := by
  simp only [List.Forall]; repeat' constructor
/-- Each operation of this stretch writes only a buffer of index at least six. -/
theorem hostOps1_12_high : (hostOps1_12 : List (HloOp τ sig (Elt F))).Forall fun op =>
    ∀ b : Ref sig .tc, Proc.devRef .tc b ∈ op.writes → 6 ≤ b.idx.val := by
  simp only [hostOps1_12, List.Forall, StableHlo.nullary_writes, StableHlo.unary_writes, StableHlo.binary_writes, StableHlo.ternary_writes, StableHlo.reshape_writes, Finset.mem_singleton]
  repeat' apply And.intro
  all_goals exact high_of_eq (by decide)

/-- Every operation after the region writes only buffers of index at least six. -/
theorem tail_high : ∀ ops ∈ (tailOps : List (List (HloOp τ sig (Elt F)))), ∀ op ∈ ops,
    ∀ b : Ref sig .tc, Proc.devRef .tc b ∈ op.writes → 6 ≤ b.idx.val := by
  intro ops hops
  simp only [List.mem_cons, List.mem_nil_iff, or_false] at hops
  rcases hops with rfl | rfl | rfl | rfl | rfl | rfl | rfl | rfl | rfl | rfl | rfl | rfl | rfl
  · exact List.forall_iff_forall_mem.mp hostOps1_high
  · exact List.forall_iff_forall_mem.mp hostOps1_1_high
  · exact List.forall_iff_forall_mem.mp hostOps1_2_high
  · exact List.forall_iff_forall_mem.mp hostOps1_3_high
  · exact List.forall_iff_forall_mem.mp hostOps1_4_high
  · exact List.forall_iff_forall_mem.mp hostOps1_5_high
  · exact List.forall_iff_forall_mem.mp hostOps1_6_high
  · exact List.forall_iff_forall_mem.mp hostOps1_7_high
  · exact List.forall_iff_forall_mem.mp hostOps1_8_high
  · exact List.forall_iff_forall_mem.mp hostOps1_9_high
  · exact List.forall_iff_forall_mem.mp hostOps1_10_high
  · exact List.forall_iff_forall_mem.mp hostOps1_11_high
  · exact List.forall_iff_forall_mem.mp hostOps1_12_high

/-- A buffer of index below six that is no array of the region ends, after the thirteen stretches, as launched. -/
theorem afterTail_low (dats : (p : Fin 1) → (c : Dev nD) → Dat τ (Elt F) Unit ℕ (UR sig nD τ) ℕ (cfgs p) c) (c : Dev nD)
    (b : Ref sig .tc) (hb : ¬ 6 ≤ b.idx.val) (harr : ∀ w, Pipeline.arrRef spec0 w ≠ b) :
    Pipeline.afterTail₀ cfgs dats 0 (V0 m) tailOps c b = m ((c : Thread nD τ).loc b) := by
  unfold Pipeline.afterTail₀
  rw [StableHlo.after_of_forall_not_mem (b := Proc.devRef .tc b) _ _ (fun op hop hw => ?_),
    Pipeline.withArrays_of_ne _ c (V0 m c) _ b harr]
  · rfl
  · obtain ⟨ops, hops, hop'⟩ := List.mem_flatten.mp hop
    exact hb (tail_high ops hops op hop' b hw)

/-- The program is the region continued by the thirteen stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) := by
  exact Pipeline.hmain_around cfgs 0 defs₀ 𝒱₀ m main [] tailOps (by simp only [List.Forall])
    (by simp only [List.Forall]) main_chain

/-- Every operation after the region touches only the region's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)

/-- None allocates. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop

/-- None writes an array the region stages: each writes its own result buffer only. -/
theorem sfx_keeps : ∀ ops ∈ (tailOps : List (List (HloOp τ sig (Elt F)))), ∀ op ∈ ops,
    ∀ w, Proc.devRef .tc (Pipeline.arrRef spec0 w) ∉ op.writes := by
  intro ops hops op hop w hw
  exact absurd (tail_high ops hops op hop _ hw) ((by decide : ∀ w, ¬ 6 ≤ (Pipeline.arrRef spec0 w).idx.val) w)

/-- No operation after the region writes the second argument: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  exact afterTail_low m dats c main_arg1 (by decide) (by decide)

/-- Nor the scalar argument. -/
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  exact afterTail_low m dats c main_arg3 (by decide) (by decide)

/-- Nor the integer argument, which nothing reads. -/
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  exact afterTail_low m dats c main_arg4 (by decide) (by decide)

end Cert.Kernel.Hand

end
-- ==== Proof.K.Cases.lean ====
/-
  The three cases of the kernel body. The body resets a 32 × 512 accumulator at reduction step 0, adds the product
  of the mask block (32 × 2048) with the feature block (2048 × 512) at every step, and stores the accumulator into the
  output block at reduction step 3. This module decides the two branch conditions over the 8 × 4 grid and names the
  memrefs the body is called with.
-/
import proofs.«120339_j28896539967630_1_alg».proof.Proof.Gen.Kernel.Launch
import proofs.«120339_j28896539967630_1_alg».proof.Proof.Gen.Kernel.Skeleton
import proofs.«120339_j28896539967630_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two branch conditions, decided over the grid

The grid is 8 × 4, points in row-major order: point `t` is object `t / 4`, reduction step `t % 4`. -/

/-- The first branch (reset the accumulator) is taken when the reduction step is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (store the accumulator into the output block) is taken when the reduction step is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the second branch is not taken nothing is stored into the output block, and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1x32x512 .f32 := (Memref.whole cc0_stg2_0 : Memref sig .tc .vmem S1x32x512 .f32).view
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x512 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from one point to the next. -/
abbrev scM0_0 : Memref sig .tc .vmem S32x512 .f32 := Memref.whole cc0_scratch0
abbrev VS0_0 : View sig .tc .vmem S32x512 .f32 := scM0_0.view

/-- What the region hands the body besides the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The kernel body run symbolically in one of its three cases (reduction step 0: reset, then accumulate).
-/
import proofs.«120339_j28896539967630_1_alg».proof.Proof.K.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Reduction step 0: the accumulator is reset and the first product added; nothing is stored into the output block.
    On whole memrefs — the two input blocks at `x0`, `x1`, the output block at any `xi2` (handed back untouched), the
    accumulator at anything — the body runs to its continuation with the inputs as they were and the accumulator
    overwritten by the pieces `LS0`, which the symbolic run finds. -/
noncomputable def kernelRun0_A (c : Dev nD) (i : grid0.Coords) (arg2 : Memref sig .tc .vmem S2048x512 .f32) (harg2 : arg2.IsWhole) (arg3 : Memref sig .tc .vmem S1x32x2048 .f32) (harg3 : arg3.IsWhole) (arg4 : Memref sig .tc .vmem S1x32x512 .f32) (harg4 : arg4.IsWhole) (arg5 : Memref sig .tc .vmem S32x512 .f32) (harg5 : arg5.IsWhole) (hc0 : cond0_0 i) (hc1 : ¬cond0_1 i)
    (x0 : Vec F S2048x512 .f32) (x1 : Vec F S1x32x2048 .f32) :
    Σ' (L2 : List (View.Piece (Elt F) S1x32x512 .f32)), { LS0 : List (View.Piece (Elt F) S32x512 .f32) //
      ∀ (xi2 : Vec F S1x32x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__seg_reduce_kernel i arg2 harg2 arg3 harg3 arg4 harg4 arg5 harg5) K } := by
  refine ⟨[], ?_, fun xi2 E K => ?run⟩
  case run =>
    simp only [cc0__seg_reduce_kernel_eq_skeleton]; unfold cc0__seg_reduce_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.RunB.lean ====
/-
  The kernel body run symbolically in one of its three cases (reduction steps 1 and 2: accumulate).
-/
import proofs.«120339_j28896539967630_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Reduction steps 1 and 2: the product is added to the accumulator the step before left (`xs0`); nothing is stored
    into the output block. -/
noncomputable def kernelRun0_B (c : Dev nD) (i : grid0.Coords) (arg2 : Memref sig .tc .vmem S2048x512 .f32) (harg2 : arg2.IsWhole) (arg3 : Memref sig .tc .vmem S1x32x2048 .f32) (harg3 : arg3.IsWhole) (arg4 : Memref sig .tc .vmem S1x32x512 .f32) (harg4 : arg4.IsWhole) (arg5 : Memref sig .tc .vmem S32x512 .f32) (harg5 : arg5.IsWhole) (hc0 : ¬cond0_0 i) (hc1 : ¬cond0_1 i)
    (x0 : Vec F S2048x512 .f32) (x1 : Vec F S1x32x2048 .f32) (xs0 : Vec F S32x512 .f32) :
    Σ' (L2 : List (View.Piece (Elt F) S1x32x512 .f32)), { LS0 : List (View.Piece (Elt F) S32x512 .f32) //
      ∀ (xi2 : Vec F S1x32x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__seg_reduce_kernel i arg2 harg2 arg3 harg3 arg4 harg4 arg5 harg5) K } := by
  refine ⟨[], ?_, fun xi2 E K => ?run⟩
  case run =>
    simp only [cc0__seg_reduce_kernel_eq_skeleton]; unfold cc0__seg_reduce_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.RunC.lean ====
/-
  The kernel body run symbolically in one of its three cases (reduction step 3: accumulate, then store the output block).
-/
import proofs.«120339_j28896539967630_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Reduction step 3: the last product is added to the accumulator the step before left (`xs0`), and the accumulator is
    stored into the output block (the pieces `L2`), whose buffer may hold anything beforehand. -/
noncomputable def kernelRun0_C (c : Dev nD) (i : grid0.Coords) (arg2 : Memref sig .tc .vmem S2048x512 .f32) (harg2 : arg2.IsWhole) (arg3 : Memref sig .tc .vmem S1x32x2048 .f32) (harg3 : arg3.IsWhole) (arg4 : Memref sig .tc .vmem S1x32x512 .f32) (harg4 : arg4.IsWhole) (arg5 : Memref sig .tc .vmem S32x512 .f32) (harg5 : arg5.IsWhole) (hc0 : ¬cond0_0 i) (hc1 : cond0_1 i)
    (x0 : Vec F S2048x512 .f32) (x1 : Vec F S1x32x2048 .f32) (xs0 : Vec F S32x512 .f32) :
    Σ' (L2 : List (View.Piece (Elt F) S1x32x512 .f32)), { LS0 : List (View.Piece (Elt F) S32x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__seg_reduce_kernel i arg2 harg2 arg3 harg3 arg4 harg4 arg5 harg5) K } := by
  refine ⟨?_, ?_, fun E K => ?run⟩
  case run =>
    simp only [cc0__seg_reduce_kernel_eq_skeleton]; unfold cc0__seg_reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Frame.lean ====
/-
  The frame of the program: its one kernel region launched over the 8 × 4 grid, then the host stretches. The proof
  data say what every staging buffer holds after the body at each point. The accumulator is carried from point to
  point: reset at reduction step 0, added to at every step; the output block is stored at step 3 only and written back
  there. With the body's three symbolic runs this gives the body obligation at every point, and the launch theorem for
  a region followed by host operations gives the run.
-/
import proofs.«120339_j28896539967630_1_alg».proof.Proof.K.Around
import proofs.«120339_j28896539967630_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's staging buffer holds its block at every point, for any proof data over the entry arrays whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the mask window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves behind -/

theorem ncond1_of0 (t : Fin cfg0.N) (h0 : t.val % 4 = 0) : ¬cond0_1 (grid0.coords t) :=
  fun h => by have := (hcond0_1 t).mp h; omega
theorem ncond0_of (t : Fin cfg0.N) (h0 : ¬t.val % 4 = 0) : ¬cond0_0 (grid0.coords t) := fun h => h0 ((hcond0_0 t).mp h)
theorem ncond1_of (t : Fin cfg0.N) (h1 : ¬t.val % 4 = 3) : ¬cond0_1 (grid0.coords t) := fun h => h1 ((hcond0_1 t).mp h)
theorem ncond0_of3 (t : Fin cfg0.N) (h1 : t.val % 4 = 3) : ¬cond0_0 (grid0.coords t) :=
  fun h => by have := (hcond0_0 t).mp h; omega

/-- The body's run at a point of reduction step 0, on the point's memrefs and blocks. -/
abbrev runA (c : Dev nD) (t : Fin cfg0.N) (h0 : t.val % 4 = 0) :=
  kernelRun0_A (F := F) c (grid0.coords t) (ms0_0 t) (hs0_0 t) (ms0_1 t) (hs0_1 t) (ms0_2 t) (hs0_2 t) scM0_0 (Memref.isWhole_whole _) ((hcond0_0 t).mpr h0) (ncond1_of0 t h0) (iblk m c 0 t) (iblk m c 1 t)
/-- At a point of reduction step 1 or 2, over the accumulator `xs` the point before left. -/
abbrev runB (c : Dev nD) (t : Fin cfg0.N) (h0 : ¬t.val % 4 = 0) (h1 : ¬t.val % 4 = 3) (xs : Vec F S32x512 .f32) :=
  kernelRun0_B (F := F) c (grid0.coords t) (ms0_0 t) (hs0_0 t) (ms0_1 t) (hs0_1 t) (ms0_2 t) (hs0_2 t) scM0_0 (Memref.isWhole_whole _) (ncond0_of t h0) (ncond1_of t h1) (iblk m c 0 t) (iblk m c 1 t) xs
/-- At a point of reduction step 3. -/
abbrev runC (c : Dev nD) (t : Fin cfg0.N) (h1 : t.val % 4 = 3) (xs : Vec F S32x512 .f32) :=
  kernelRun0_C (F := F) c (grid0.coords t) (ms0_0 t) (hs0_0 t) (ms0_1 t) (hs0_1 t) (ms0_2 t) (hs0_2 t) scM0_0 (Memref.isWhole_whole _) (ncond0_of3 t h1) ((hcond0_1 t).mpr h1) (iblk m c 0 t) (iblk m c 1 t) xs

/-- The accumulator after a point of step 0: the run's pieces read back. -/
def scrA (c : Dev nD) (t : Fin cfg0.N) (h0 : t.val % 4 = 0) : Vec F S32x512 .f32 :=
  VS0_0.read (Elt F) (VS0_0.writes (Elt F) VS0_0.junk (runA m c t h0).2.1)
def scrB (c : Dev nD) (t : Fin cfg0.N) (h0 : ¬t.val % 4 = 0) (h1 : ¬t.val % 4 = 3) (xs : Vec F S32x512 .f32) : Vec F S32x512 .f32 :=
  VS0_0.read (Elt F) (VS0_0.writes (Elt F) VS0_0.junk (runB m c t h0 h1 xs).2.1)
def scrC (c : Dev nD) (t : Fin cfg0.N) (h1 : t.val % 4 = 3) (xs : Vec F S32x512 .f32) : Vec F S32x512 .f32 :=
  VS0_0.read (Elt F) (VS0_0.writes (Elt F) VS0_0.junk (runC m c t h1 xs).2.1)
/-- The output block after a point of step 3. -/
def outC (c : Dev nD) (t : Fin cfg0.N) (h1 : t.val % 4 = 3) (xs : Vec F S32x512 .f32) : Vec F S1x32x512 .f32 :=
  VO0_2.read (Elt F) (VO0_2.writes (Elt F) VO0_2.junk (runC m c t h1 xs).1)

/-- In every case the pieces stored into the accumulator tile it. -/
theorem scoverA (c : Dev nD) (t : Fin cfg0.N) (h0 : t.val % 4 = 0) (y : S32x512.Idx) : ∃ pc ∈ (runA m c t h0).2.1, y ∈ pc.1.set :=
  View.cover_of_tiledL (runA m c t h0).2.1 S32x512.size (by sl_kernel_rfl) y
theorem scoverB (c : Dev nD) (t : Fin cfg0.N) (h0 : ¬t.val % 4 = 0) (h1 : ¬t.val % 4 = 3) (xs : Vec F S32x512 .f32) (y : S32x512.Idx) :
    ∃ pc ∈ (runB m c t h0 h1 xs).2.1, y ∈ pc.1.set :=
  View.cover_of_tiledL (runB m c t h0 h1 xs).2.1 S32x512.size (by sl_kernel_rfl) y
theorem scoverC (c : Dev nD) (t : Fin cfg0.N) (h1 : t.val % 4 = 3) (xs : Vec F S32x512 .f32) (y : S32x512.Idx) :
    ∃ pc ∈ (runC m c t h1 xs).2.1, y ∈ pc.1.set :=
  View.cover_of_tiledL (runC m c t h1 xs).2.1 S32x512.size (by sl_kernel_rfl) y
/-- At step 3 the one store into the output block covers it. -/
theorem coverC (c : Dev nD) (t : Fin cfg0.N) (h1 : t.val % 4 = 3) (xs : Vec F S32x512 .f32) (y : S1x32x512.Idx) :
    ∃ pc ∈ (runC m c t h1 xs).1, y ∈ pc.1.set :=
  View.cover_of_tiledL (runC m c t h1 xs).1 S1x32x512.size (by sl_kernel_rfl) y

/-! ## The accumulator point by point -/

/-- What the accumulator holds after the body at position `n`: reset and first product at a step 0, otherwise the
    product added to what position `n - 1` left. -/
def accAt (c : Dev nD) : (n : ℕ) → n < cfg0.N → Vec F S32x512 .f32
  | 0, hn => scrA m c ⟨0, hn⟩ (Nat.zero_mod _)
  | n + 1, hn =>
    if h0 : (n + 1) % 4 = 0 then scrA m c ⟨n + 1, hn⟩ h0
    else if h1 : (n + 1) % 4 = 3 then scrC m c ⟨n + 1, hn⟩ h1 (accAt c n (Nat.lt_of_succ_lt hn))
    else scrB m c ⟨n + 1, hn⟩ h0 h1 (accAt c n (Nat.lt_of_succ_lt hn))

theorem pred_lt (t : Fin cfg0.N) : t.val - 1 < cfg0.N := Nat.lt_of_le_of_lt (Nat.sub_le _ _) t.isLt

theorem accAt_A (c : Dev nD) (t : Fin cfg0.N) (h0 : t.val % 4 = 0) : accAt m c t.val t.isLt = scrA m c t h0 := by
  obtain ⟨n, hn⟩ := t
  cases n with
  | zero => rfl
  | succ n => exact dif_pos h0

theorem accAt_B (c : Dev nD) (t : Fin cfg0.N) (h0 : ¬t.val % 4 = 0) (h1 : ¬t.val % 4 = 3) :
    accAt m c t.val t.isLt = scrB m c t h0 h1 (accAt m c (t.val - 1) (pred_lt t)) := by
  obtain ⟨n, hn⟩ := t
  cases n with
  | zero => exact absurd (Nat.zero_mod _) h0
  | succ n => exact (dif_neg h0).trans (dif_neg h1)

theorem accAt_C (c : Dev nD) (t : Fin cfg0.N) (h1 : t.val % 4 = 3) :
    accAt m c t.val t.isLt = scrC m c t h1 (accAt m c (t.val - 1) (pred_lt t)) := by
  obtain ⟨n, hn⟩ := t
  cases n with
  | zero => exact absurd (show (0 : ℕ) % 4 = 3 from h1) (by decide)
  | succ n =>
    have h1' : (n + 1) % 4 = 3 := h1
    exact (dif_neg (by omega)).trans (dif_pos h1)

/-- What the output block's staging buffer holds after the body at point `t`: the stored accumulator at a step 3; at the
    other points nothing is stored and the value is never consulted. -/
def outAt (c : Dev nD) (t : Fin cfg0.N) : Vec F S1x32x512 .f32 :=
  if h1 : t.val % 4 = 3 then outC m c t h1 (accAt m c (t.val - 1) (pred_lt t)) else VO0_2.read (Elt F) VO0_2.junk

theorem outAt_C (c : Dev nD) (t : Fin cfg0.N) (h1 : t.val % 4 = 3) :
    outAt m c t = outC m c t h1 (accAt m c (t.val - 1) (pred_lt t)) := dif_pos h1

/-! ## The region invariant -/

/-- Before the first point: the accumulator at anything. Afterwards: the accumulator at what the point before left. In
    both the generator register at some state. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The proof data -/

/-- The arrays as the region finds them; each input's buffer at its block after the body; the output's at `outAt`; the
    invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves2_C (c : Dev nD) (t : Fin cfg0.N) (h1 : t.val % 4 = 3) :
    (dats m 0 c).leavesExact 2 t = owns (c : Thread nD τ) (ms0_2 t) fullShare (outAt m c t) := by
  unfold Dat.leavesExact; rw [liveAt0_2 t ((hcond0_1 t).mpr h1), after0_2]

set_option maxHeartbeats 4800000 in
/-- The body at any point. The inputs' buffers hold their blocks; the closed forms of the two conditions say which
    case the point is in; the invariant hands the body the accumulator at what the point before left (at anything
    before the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ, leaves0, leaves1]
  have hN : t.val < 32 := lt_of_lt_of_eq t.isLt (show cfg0.N = 32 from N_0)
  by_cases h0 : t.val % 4 = 0
  · rw [Dat.leavesExact_idle (dats m 0 c) 2 t (idleAt0_2 t (ncond1_of0 t h0)) (noFlush0_2 t (ncond1_of0 t h0))]
    rw [accAt_A m c t h0]
    unfold scrA
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩⟩
      iapply ((runA m c t h0).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scoverA m c t h0)
        iexact Hg
      isplitl [Ho]; · iexact Ho
      isplitl [H0]; · iexact H0
      isplitl [H1]; · iexact H1
      iexists _; iexact H2
    · rw [PhiS_castSucc m c t, PhiS_pos m c _ _ hz]
      iintro ⟨⟨HS0, Hg⟩, Ho, ⟨%d0, H0⟩, ⟨%d1, H1⟩, ⟨%d2, H2⟩⟩
      iapply ((runA m c t h0).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scoverA m c t h0)
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [leaves2_C m c t h1, outAt_C m c t h1, accAt_C m c t h1]
      unfold scrC outC
      rw [PhiS_castSucc m c t, PhiS_pos m c _ _ hz]
      iintro ⟨⟨HS0, Hg⟩, Ho, ⟨%d0, H0⟩, ⟨%d1, H1⟩, ⟨%d2, H2⟩⟩
      iapply ((runC m c t h1 _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scoverC m c t h1 _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverC m c t h1 _)
    · rw [Dat.leavesExact_idle (dats m 0 c) 2 t (idleAt0_2 t (ncond1_of t h1)) (noFlush0_2 t (ncond1_of t h1))]
      rw [accAt_B m c t h0 h1]
      unfold scrB
      rw [PhiS_castSucc m c t, PhiS_pos m c _ _ hz]
      iintro ⟨⟨HS0, Hg⟩, Ho, ⟨%d0, H0⟩, ⟨%d1, H1⟩, ⟨%d2, H2⟩⟩
      iapply ((runB m c t h0 h1 _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scoverB m c t h0 h1 _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the accumulator's contents are forgotten. -/
theorem hout (c : Dev nD) : (dats m 0 c).Φ (Fin.last cfg0.N) ⊢ Pipeline.ΦA spec0 c := by
  have hN : cfg0.N = 32 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  iintro ⟨HS0, Hg⟩
  isplitl [HS0]
  · iexists _; iexact HS0
  iexact Hg

/-! ## The run and the frame -/

set_option backward.isDefEq.respectTransparency.types false in
/-- Every weakly fair execution of the program terminates; at the end every array the region stages holds what the
    proof data compute, and every other unscoped buffer what the thirteen stretches leave in it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the program runs to the end without a fault and its five arguments end unchanged. Two are arrays the
    region stages as inputs; the other three bypass the region and no later operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).1 1).trans (((dats m 0 c).arrAt_in 1 rfl _).trans ((A_eq m c 1).trans (V_main_arg2 m c))),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.Kernel.Hand

end
-- ==== Proof.KI.Around.lean ====
/-
  The program around its one kernel region. The region is the first item of the program; everything after it is
  thirteen stretches of host operations (134 in all) that read the region's result, two of the argument arrays and
  the scalar, and write only buffers of their own. This module states what the launch needs of those stretches:
  the program IS the region continued by them, they touch only unscoped device buffers, allocate nothing, and
  write neither an array the region stages nor an argument.
-/
import proofs.«120339_j28896539967630_1_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host stretches after the region, in program order. -/
abbrev tailOps : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12]

/-- A core's buffer contents when the region is entered: no host operation comes before it, so the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! Each host operation writes exactly one buffer, its own result, and allocates nothing. The arguments are the
    buffers of index 0 to 4 and the region's result has index 5; every result of a host operation has index at
    least 6. So no host operation writes an argument or the region's result. -/

/-- An operation whose one written buffer has index at least six writes only a buffer of index at least six. -/
theorem high_of_eq {y : Ref sig .tc} (hy : 6 ≤ y.idx.val) (b : Ref sig .tc)
    (h : Proc.devRef (τ := τ) .tc b = Proc.devRef .tc y) : 6 ≤ b.idx.val := by
  rw [Proc.devRef_injective _ h]; exact hy

/-- No operation of this stretch allocates. -/
theorem hostOps1_fresh : (hostOps1 : List (HloOp τ sig (Elt F))).Forall fun op => op.fresh = ∅ := by
  simp only [List.Forall]; repeat' constructor
/-- Each operation of this stretch writes only a buffer of index at least six. -/
theorem hostOps1_high : (hostOps1 : List (HloOp τ sig (Elt F))).Forall fun op =>
    ∀ b : Ref sig .tc, Proc.devRef .tc b ∈ op.writes → 6 ≤ b.idx.val := by
  simp only [hostOps1, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_1_fresh : (hostOps1_1 : List (HloOp τ sig (Elt F))).Forall fun op => op.fresh = ∅ := by
  simp only [List.Forall]; repeat' constructor
/-- Each operation of this stretch writes only a buffer of index at least six. -/
theorem hostOps1_1_high : (hostOps1_1 : List (HloOp τ sig (Elt F))).Forall fun op =>
    ∀ b : Ref sig .tc, Proc.devRef .tc b ∈ op.writes → 6 ≤ b.idx.val := by
  simp only [hostOps1_1, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_2_fresh : (hostOps1_2 : List (HloOp τ sig (Elt F))).Forall fun op => op.fresh = ∅ := by
  simp only [List.Forall]; repeat' constructor
/-- Each operation of this stretch writes only a buffer of index at least six. -/
theorem hostOps1_2_high : (hostOps1_2 : List (HloOp τ sig (Elt F))).Forall fun op =>
    ∀ b : Ref sig .tc, Proc.devRef .tc b ∈ op.writes → 6 ≤ b.idx.val := by
  simp only [hostOps1_2, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_3_fresh : (hostOps1_3 : List (HloOp τ sig (Elt F))).Forall fun op => op.fresh = ∅ := by
  simp only [List.Forall]; repeat' constructor
/-- Each operation of this stretch writes only a buffer of index at least six. -/
theorem hostOps1_3_high : (hostOps1_3 : List (HloOp τ sig (Elt F))).Forall fun op =>
    ∀ b : Ref sig .tc, Proc.devRef .tc b ∈ op.writes → 6 ≤ b.idx.val := by
  simp only [hostOps1_3, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_4_fresh : (hostOps1_4 : List (HloOp τ sig (Elt F))).Forall fun op => op.fresh = ∅ := by
  simp only [List.Forall]; repeat' constructor
/-- Each operation of this stretch writes only a buffer of index at least six. -/
theorem hostOps1_4_high : (hostOps1_4 : List (HloOp τ sig (Elt F))).Forall fun op =>
    ∀ b : Ref sig .tc, Proc.devRef .tc b ∈ op.writes → 6 ≤ b.idx.val := by
  simp only [hostOps1_4, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_5_fresh : (hostOps1_5 : List (HloOp τ sig (Elt F))).Forall fun op => op.fresh = ∅ := by
  simp only [List.Forall]; repeat' constructor
/-- Each operation of this stretch writes only a buffer of index at least six. -/
theorem hostOps1_5_high : (hostOps1_5 : List (HloOp τ sig (Elt F))).Forall fun op =>
    ∀ b : Ref sig .tc, Proc.devRef .tc b ∈ op.writes → 6 ≤ b.idx.val := by
  simp only [hostOps1_5, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_6_fresh : (hostOps1_6 : List (HloOp τ sig (Elt F))).Forall fun op => op.fresh = ∅ := by
  simp only [List.Forall]; repeat' constructor
/-- Each operation of this stretch writes only a buffer of index at least six. -/
theorem hostOps1_6_high : (hostOps1_6 : List (HloOp τ sig (Elt F))).Forall fun op =>
    ∀ b : Ref sig .tc, Proc.devRef .tc b ∈ op.writes → 6 ≤ b.idx.val := by
  simp only [hostOps1_6, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_7_fresh : (hostOps1_7 : List (HloOp τ sig (Elt F))).Forall fun op => op.fresh = ∅ := by
  simp only [List.Forall]; repeat' constructor
/-- Each operation of this stretch writes only a buffer of index at least six. -/
theorem hostOps1_7_high : (hostOps1_7 : List (HloOp τ sig (Elt F))).Forall fun op =>
    ∀ b : Ref sig .tc, Proc.devRef .tc b ∈ op.writes → 6 ≤ b.idx.val := by
  simp only [hostOps1_7, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_8_fresh : (hostOps1_8 : List (HloOp τ sig (Elt F))).Forall fun op => op.fresh = ∅ := by
  simp only [List.Forall]; repeat' constructor
/-- Each operation of this stretch writes only a buffer of index at least six. -/
theorem hostOps1_8_high : (hostOps1_8 : List (HloOp τ sig (Elt F))).Forall fun op =>
    ∀ b : Ref sig .tc, Proc.devRef .tc b ∈ op.writes → 6 ≤ b.idx.val := by
  simp only [hostOps1_8, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_9_fresh : (hostOps1_9 : List (HloOp τ sig (Elt F))).Forall fun op => op.fresh = ∅ := by
  simp only [List.Forall]; repeat' constructor
/-- Each operation of this stretch writes only a buffer of index at least six. -/
theorem hostOps1_9_high : (hostOps1_9 : List (HloOp τ sig (Elt F))).Forall fun op =>
    ∀ b : Ref sig .tc, Proc.devRef .tc b ∈ op.writes → 6 ≤ b.idx.val := by
  simp only [hostOps1_9, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_10_fresh : (hostOps1_10 : List (HloOp τ sig (Elt F))).Forall fun op => op.fresh = ∅ := by
  simp only [List.Forall]; repeat' constructor
/-- Each operation of this stretch writes only a buffer of index at least six. -/
theorem hostOps1_10_high : (hostOps1_10 : List (HloOp τ sig (Elt F))).Forall fun op =>
    ∀ b : Ref sig .tc, Proc.devRef .tc b ∈ op.writes → 6 ≤ b.idx.val := by
  simp only [hostOps1_10, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_11_fresh : (hostOps1_11 : List (HloOp τ sig (Elt F))).Forall fun op => op.fresh = ∅ := by
  simp only [List.Forall]; repeat' constructor
/-- Each operation of this stretch writes only a buffer of index at least six. -/
theorem hostOps1_11_high : (hostOps1_11 : List (HloOp τ sig (Elt F))).Forall fun op =>
    ∀ b : Ref sig .tc, Proc.devRef .tc b ∈ op.writes → 6 ≤ b.idx.val := by
  simp only [hostOps1_11, List.Forall, StableHlo.nullary_writes, StableHlo.unary_writes, StableHlo.binary_writes, StableHlo.ternary_writes, StableHlo.reshape_writes, Finset.mem_singleton]
  repeat' apply And.intro
  all_goals exact high_of_eq (by decide)
/-- No operation of this stretch allocates. -/
theorem hostOps1_12_fresh : (hostOps1_12 : List (HloOp τ sig (Elt F))).Forall fun op => op.fresh = ∅ := by
  simp only [List.Forall]; repeat' constructor
/-- Each operation of this stretch writes only a buffer of index at least six. -/
theorem hostOps1_12_high : (hostOps1_12 : List (HloOp τ sig (Elt F))).Forall fun op =>
    ∀ b : Ref sig .tc, Proc.devRef .tc b ∈ op.writes → 6 ≤ b.idx.val := by
  simp only [hostOps1_12, List.Forall, StableHlo.nullary_writes, StableHlo.unary_writes, StableHlo.binary_writes, StableHlo.ternary_writes, StableHlo.reshape_writes, Finset.mem_singleton]
  repeat' apply And.intro
  all_goals exact high_of_eq (by decide)

/-- Every operation after the region writes only buffers of index at least six. -/
theorem tail_high : ∀ ops ∈ (tailOps : List (List (HloOp τ sig (Elt F)))), ∀ op ∈ ops,
    ∀ b : Ref sig .tc, Proc.devRef .tc b ∈ op.writes → 6 ≤ b.idx.val := by
  intro ops hops
  simp only [List.mem_cons, List.mem_nil_iff, or_false] at hops
  rcases hops with rfl | rfl | rfl | rfl | rfl | rfl | rfl | rfl | rfl | rfl | rfl | rfl | rfl
  · exact List.forall_iff_forall_mem.mp hostOps1_high
  · exact List.forall_iff_forall_mem.mp hostOps1_1_high
  · exact List.forall_iff_forall_mem.mp hostOps1_2_high
  · exact List.forall_iff_forall_mem.mp hostOps1_3_high
  · exact List.forall_iff_forall_mem.mp hostOps1_4_high
  · exact List.forall_iff_forall_mem.mp hostOps1_5_high
  · exact List.forall_iff_forall_mem.mp hostOps1_6_high
  · exact List.forall_iff_forall_mem.mp hostOps1_7_high
  · exact List.forall_iff_forall_mem.mp hostOps1_8_high
  · exact List.forall_iff_forall_mem.mp hostOps1_9_high
  · exact List.forall_iff_forall_mem.mp hostOps1_10_high
  · exact List.forall_iff_forall_mem.mp hostOps1_11_high
  · exact List.forall_iff_forall_mem.mp hostOps1_12_high

/-- A buffer of index below six that is no array of the region ends, after the thirteen stretches, as launched. -/
theorem afterTail_low (dats : (p : Fin 1) → (c : Dev nD) → Dat τ (Elt F) Unit ℕ (UR sig nD τ) ℕ (cfgs p) c) (c : Dev nD)
    (b : Ref sig .tc) (hb : ¬ 6 ≤ b.idx.val) (harr : ∀ w, Pipeline.arrRef spec0 w ≠ b) :
    Pipeline.afterTail₀ cfgs dats 0 (V0 m) tailOps c b = m ((c : Thread nD τ).loc b) := by
  unfold Pipeline.afterTail₀
  rw [StableHlo.after_of_forall_not_mem (b := Proc.devRef .tc b) _ _ (fun op hop hw => ?_),
    Pipeline.withArrays_of_ne _ c (V0 m c) _ b harr]
  · rfl
  · obtain ⟨ops, hops, hop'⟩ := List.mem_flatten.mp hop
    exact hb (tail_high ops hops op hop' b hw)

/-- The program is the region continued by the thirteen stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) := by
  exact Pipeline.hmain_around cfgs 0 defs₀ 𝒱₀ m main [] tailOps (by simp only [List.Forall])
    (by simp only [List.Forall]) main_chain

/-- Every operation after the region touches only the region's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)

/-- None allocates. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop

/-- None writes an array the region stages: each writes its own result buffer only. -/
theorem sfx_keeps : ∀ ops ∈ (tailOps : List (List (HloOp τ sig (Elt F)))), ∀ op ∈ ops,
    ∀ w, Proc.devRef .tc (Pipeline.arrRef spec0 w) ∉ op.writes := by
  intro ops hops op hop w hw
  exact absurd (tail_high ops hops op hop _ hw) ((by decide : ∀ w, ¬ 6 ≤ (Pipeline.arrRef spec0 w).idx.val) w)

/-- No operation after the region writes the second argument: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  exact afterTail_low m dats c main_arg1 (by decide) (by decide)

/-- Nor the scalar argument. -/
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  exact afterTail_low m dats c main_arg3 (by decide) (by decide)

/-- Nor the integer argument, which nothing reads. -/
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  exact afterTail_low m dats c main_arg4 (by decide) (by decide)

end Cert.KernelIdeal.Hand

end
-- ==== Proof.KI.Cases.lean ====
/-
  The three cases of the kernel body. The body resets a 32 × 512 accumulator at reduction step 0, adds the product
  of the mask block (32 × 2048) with the feature block (2048 × 512) at every step, and stores the accumulator into the
  output block at reduction step 3. This module decides the two branch conditions over the 8 × 4 grid and names the
  memrefs the body is called with.
-/
import proofs.«120339_j28896539967630_1_alg».proof.Proof.Gen.KernelIdeal.Launch
import proofs.«120339_j28896539967630_1_alg».proof.Proof.Gen.KernelIdeal.Skeleton
import proofs.«120339_j28896539967630_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two branch conditions, decided over the grid

The grid is 8 × 4, points in row-major order: point `t` is object `t / 4`, reduction step `t % 4`. -/

/-- The first branch (reset the accumulator) is taken when the reduction step is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (store the accumulator into the output block) is taken when the reduction step is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the second branch is not taken nothing is stored into the output block, and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1x32x512 .f32 := (Memref.whole cc0_stg2_0 : Memref sig .tc .vmem S1x32x512 .f32).view
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x512 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from one point to the next. -/
abbrev scM0_0 : Memref sig .tc .vmem S32x512 .f32 := Memref.whole cc0_scratch0
abbrev VS0_0 : View sig .tc .vmem S32x512 .f32 := scM0_0.view

/-- What the region hands the body besides the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The kernel body run symbolically in one of its three cases (reduction step 0: reset, then accumulate).
-/
import proofs.«120339_j28896539967630_1_alg».proof.Proof.KI.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Reduction step 0: the accumulator is reset and the first product added; nothing is stored into the output block.
    On whole memrefs — the two input blocks at `x0`, `x1`, the output block at any `xi2` (handed back untouched), the
    accumulator at anything — the body runs to its continuation with the inputs as they were and the accumulator
    overwritten by the pieces `LS0`, which the symbolic run finds. -/
noncomputable def kernelRun0_A (c : Dev nD) (i : grid0.Coords) (arg2 : Memref sig .tc .vmem S2048x512 .f32) (harg2 : arg2.IsWhole) (arg3 : Memref sig .tc .vmem S1x32x2048 .f32) (harg3 : arg3.IsWhole) (arg4 : Memref sig .tc .vmem S1x32x512 .f32) (harg4 : arg4.IsWhole) (arg5 : Memref sig .tc .vmem S32x512 .f32) (harg5 : arg5.IsWhole) (hc0 : cond0_0 i) (hc1 : ¬cond0_1 i)
    (x0 : Vec F S2048x512 .f32) (x1 : Vec F S1x32x2048 .f32) :
    Σ' (L2 : List (View.Piece (Elt F) S1x32x512 .f32)), { LS0 : List (View.Piece (Elt F) S32x512 .f32) //
      ∀ (xi2 : Vec F S1x32x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__seg_reduce_kernel i arg2 harg2 arg3 harg3 arg4 harg4 arg5 harg5) K } := by
  refine ⟨[], ?_, fun xi2 E K => ?run⟩
  case run =>
    simp only [cc0__seg_reduce_kernel_eq_skeleton]; unfold cc0__seg_reduce_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.RunB.lean ====
/-
  The kernel body run symbolically in one of its three cases (reduction steps 1 and 2: accumulate).
-/
import proofs.«120339_j28896539967630_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Reduction steps 1 and 2: the product is added to the accumulator the step before left (`xs0`); nothing is stored
    into the output block. -/
noncomputable def kernelRun0_B (c : Dev nD) (i : grid0.Coords) (arg2 : Memref sig .tc .vmem S2048x512 .f32) (harg2 : arg2.IsWhole) (arg3 : Memref sig .tc .vmem S1x32x2048 .f32) (harg3 : arg3.IsWhole) (arg4 : Memref sig .tc .vmem S1x32x512 .f32) (harg4 : arg4.IsWhole) (arg5 : Memref sig .tc .vmem S32x512 .f32) (harg5 : arg5.IsWhole) (hc0 : ¬cond0_0 i) (hc1 : ¬cond0_1 i)
    (x0 : Vec F S2048x512 .f32) (x1 : Vec F S1x32x2048 .f32) (xs0 : Vec F S32x512 .f32) :
    Σ' (L2 : List (View.Piece (Elt F) S1x32x512 .f32)), { LS0 : List (View.Piece (Elt F) S32x512 .f32) //
      ∀ (xi2 : Vec F S1x32x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__seg_reduce_kernel i arg2 harg2 arg3 harg3 arg4 harg4 arg5 harg5) K } := by
  refine ⟨[], ?_, fun xi2 E K => ?run⟩
  case run =>
    simp only [cc0__seg_reduce_kernel_eq_skeleton]; unfold cc0__seg_reduce_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.RunC.lean ====
/-
  The kernel body run symbolically in one of its three cases (reduction step 3: accumulate, then store the output block).
-/
import proofs.«120339_j28896539967630_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Reduction step 3: the last product is added to the accumulator the step before left (`xs0`), and the accumulator is
    stored into the output block (the pieces `L2`), whose buffer may hold anything beforehand. -/
noncomputable def kernelRun0_C (c : Dev nD) (i : grid0.Coords) (arg2 : Memref sig .tc .vmem S2048x512 .f32) (harg2 : arg2.IsWhole) (arg3 : Memref sig .tc .vmem S1x32x2048 .f32) (harg3 : arg3.IsWhole) (arg4 : Memref sig .tc .vmem S1x32x512 .f32) (harg4 : arg4.IsWhole) (arg5 : Memref sig .tc .vmem S32x512 .f32) (harg5 : arg5.IsWhole) (hc0 : ¬cond0_0 i) (hc1 : cond0_1 i)
    (x0 : Vec F S2048x512 .f32) (x1 : Vec F S1x32x2048 .f32) (xs0 : Vec F S32x512 .f32) :
    Σ' (L2 : List (View.Piece (Elt F) S1x32x512 .f32)), { LS0 : List (View.Piece (Elt F) S32x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__seg_reduce_kernel i arg2 harg2 arg3 harg3 arg4 harg4 arg5 harg5) K } := by
  refine ⟨?_, ?_, fun E K => ?run⟩
  case run =>
    simp only [cc0__seg_reduce_kernel_eq_skeleton]; unfold cc0__seg_reduce_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Frame.lean ====
/-
  The frame of the program: its one kernel region launched over the 8 × 4 grid, then the host stretches. The proof
  data say what every staging buffer holds after the body at each point. The accumulator is carried from point to
  point: reset at reduction step 0, added to at every step; the output block is stored at step 3 only and written back
  there. With the body's three symbolic runs this gives the body obligation at every point, and the launch theorem for
  a region followed by host operations gives the run.
-/
import proofs.«120339_j28896539967630_1_alg».proof.Proof.KI.Around
import proofs.«120339_j28896539967630_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's staging buffer holds its block at every point, for any proof data over the entry arrays whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the mask window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves behind -/

theorem ncond1_of0 (t : Fin cfg0.N) (h0 : t.val % 4 = 0) : ¬cond0_1 (grid0.coords t) :=
  fun h => by have := (hcond0_1 t).mp h; omega
theorem ncond0_of (t : Fin cfg0.N) (h0 : ¬t.val % 4 = 0) : ¬cond0_0 (grid0.coords t) := fun h => h0 ((hcond0_0 t).mp h)
theorem ncond1_of (t : Fin cfg0.N) (h1 : ¬t.val % 4 = 3) : ¬cond0_1 (grid0.coords t) := fun h => h1 ((hcond0_1 t).mp h)
theorem ncond0_of3 (t : Fin cfg0.N) (h1 : t.val % 4 = 3) : ¬cond0_0 (grid0.coords t) :=
  fun h => by have := (hcond0_0 t).mp h; omega

/-- The body's run at a point of reduction step 0, on the point's memrefs and blocks. -/
abbrev runA (c : Dev nD) (t : Fin cfg0.N) (h0 : t.val % 4 = 0) :=
  kernelRun0_A (F := F) c (grid0.coords t) (ms0_0 t) (hs0_0 t) (ms0_1 t) (hs0_1 t) (ms0_2 t) (hs0_2 t) scM0_0 (Memref.isWhole_whole _) ((hcond0_0 t).mpr h0) (ncond1_of0 t h0) (iblk m c 0 t) (iblk m c 1 t)
/-- At a point of reduction step 1 or 2, over the accumulator `xs` the point before left. -/
abbrev runB (c : Dev nD) (t : Fin cfg0.N) (h0 : ¬t.val % 4 = 0) (h1 : ¬t.val % 4 = 3) (xs : Vec F S32x512 .f32) :=
  kernelRun0_B (F := F) c (grid0.coords t) (ms0_0 t) (hs0_0 t) (ms0_1 t) (hs0_1 t) (ms0_2 t) (hs0_2 t) scM0_0 (Memref.isWhole_whole _) (ncond0_of t h0) (ncond1_of t h1) (iblk m c 0 t) (iblk m c 1 t) xs
/-- At a point of reduction step 3. -/
abbrev runC (c : Dev nD) (t : Fin cfg0.N) (h1 : t.val % 4 = 3) (xs : Vec F S32x512 .f32) :=
  kernelRun0_C (F := F) c (grid0.coords t) (ms0_0 t) (hs0_0 t) (ms0_1 t) (hs0_1 t) (ms0_2 t) (hs0_2 t) scM0_0 (Memref.isWhole_whole _) (ncond0_of3 t h1) ((hcond0_1 t).mpr h1) (iblk m c 0 t) (iblk m c 1 t) xs

/-- The accumulator after a point of step 0: the run's pieces read back. -/
def scrA (c : Dev nD) (t : Fin cfg0.N) (h0 : t.val % 4 = 0) : Vec F S32x512 .f32 :=
  VS0_0.read (Elt F) (VS0_0.writes (Elt F) VS0_0.junk (runA m c t h0).2.1)
def scrB (c : Dev nD) (t : Fin cfg0.N) (h0 : ¬t.val % 4 = 0) (h1 : ¬t.val % 4 = 3) (xs : Vec F S32x512 .f32) : Vec F S32x512 .f32 :=
  VS0_0.read (Elt F) (VS0_0.writes (Elt F) VS0_0.junk (runB m c t h0 h1 xs).2.1)
def scrC (c : Dev nD) (t : Fin cfg0.N) (h1 : t.val % 4 = 3) (xs : Vec F S32x512 .f32) : Vec F S32x512 .f32 :=
  VS0_0.read (Elt F) (VS0_0.writes (Elt F) VS0_0.junk (runC m c t h1 xs).2.1)
/-- The output block after a point of step 3. -/
def outC (c : Dev nD) (t : Fin cfg0.N) (h1 : t.val % 4 = 3) (xs : Vec F S32x512 .f32) : Vec F S1x32x512 .f32 :=
  VO0_2.read (Elt F) (VO0_2.writes (Elt F) VO0_2.junk (runC m c t h1 xs).1)

/-- In every case the pieces stored into the accumulator tile it. -/
theorem scoverA (c : Dev nD) (t : Fin cfg0.N) (h0 : t.val % 4 = 0) (y : S32x512.Idx) : ∃ pc ∈ (runA m c t h0).2.1, y ∈ pc.1.set :=
  View.cover_of_tiledL (runA m c t h0).2.1 S32x512.size (by sl_kernel_rfl) y
theorem scoverB (c : Dev nD) (t : Fin cfg0.N) (h0 : ¬t.val % 4 = 0) (h1 : ¬t.val % 4 = 3) (xs : Vec F S32x512 .f32) (y : S32x512.Idx) :
    ∃ pc ∈ (runB m c t h0 h1 xs).2.1, y ∈ pc.1.set :=
  View.cover_of_tiledL (runB m c t h0 h1 xs).2.1 S32x512.size (by sl_kernel_rfl) y
theorem scoverC (c : Dev nD) (t : Fin cfg0.N) (h1 : t.val % 4 = 3) (xs : Vec F S32x512 .f32) (y : S32x512.Idx) :
    ∃ pc ∈ (runC m c t h1 xs).2.1, y ∈ pc.1.set :=
  View.cover_of_tiledL (runC m c t h1 xs).2.1 S32x512.size (by sl_kernel_rfl) y
/-- At step 3 the one store into the output block covers it. -/
theorem coverC (c : Dev nD) (t : Fin cfg0.N) (h1 : t.val % 4 = 3) (xs : Vec F S32x512 .f32) (y : S1x32x512.Idx) :
    ∃ pc ∈ (runC m c t h1 xs).1, y ∈ pc.1.set :=
  View.cover_of_tiledL (runC m c t h1 xs).1 S1x32x512.size (by sl_kernel_rfl) y

/-! ## The accumulator point by point -/

/-- What the accumulator holds after the body at position `n`: reset and first product at a step 0, otherwise the
    product added to what position `n - 1` left. -/
def accAt (c : Dev nD) : (n : ℕ) → n < cfg0.N → Vec F S32x512 .f32
  | 0, hn => scrA m c ⟨0, hn⟩ (Nat.zero_mod _)
  | n + 1, hn =>
    if h0 : (n + 1) % 4 = 0 then scrA m c ⟨n + 1, hn⟩ h0
    else if h1 : (n + 1) % 4 = 3 then scrC m c ⟨n + 1, hn⟩ h1 (accAt c n (Nat.lt_of_succ_lt hn))
    else scrB m c ⟨n + 1, hn⟩ h0 h1 (accAt c n (Nat.lt_of_succ_lt hn))

theorem pred_lt (t : Fin cfg0.N) : t.val - 1 < cfg0.N := Nat.lt_of_le_of_lt (Nat.sub_le _ _) t.isLt

theorem accAt_A (c : Dev nD) (t : Fin cfg0.N) (h0 : t.val % 4 = 0) : accAt m c t.val t.isLt = scrA m c t h0 := by
  obtain ⟨n, hn⟩ := t
  cases n with
  | zero => rfl
  | succ n => exact dif_pos h0

theorem accAt_B (c : Dev nD) (t : Fin cfg0.N) (h0 : ¬t.val % 4 = 0) (h1 : ¬t.val % 4 = 3) :
    accAt m c t.val t.isLt = scrB m c t h0 h1 (accAt m c (t.val - 1) (pred_lt t)) := by
  obtain ⟨n, hn⟩ := t
  cases n with
  | zero => exact absurd (Nat.zero_mod _) h0
  | succ n => exact (dif_neg h0).trans (dif_neg h1)

theorem accAt_C (c : Dev nD) (t : Fin cfg0.N) (h1 : t.val % 4 = 3) :
    accAt m c t.val t.isLt = scrC m c t h1 (accAt m c (t.val - 1) (pred_lt t)) := by
  obtain ⟨n, hn⟩ := t
  cases n with
  | zero => exact absurd (show (0 : ℕ) % 4 = 3 from h1) (by decide)
  | succ n =>
    have h1' : (n + 1) % 4 = 3 := h1
    exact (dif_neg (by omega)).trans (dif_pos h1)

/-- What the output block's staging buffer holds after the body at point `t`: the stored accumulator at a step 3; at the
    other points nothing is stored and the value is never consulted. -/
def outAt (c : Dev nD) (t : Fin cfg0.N) : Vec F S1x32x512 .f32 :=
  if h1 : t.val % 4 = 3 then outC m c t h1 (accAt m c (t.val - 1) (pred_lt t)) else VO0_2.read (Elt F) VO0_2.junk

theorem outAt_C (c : Dev nD) (t : Fin cfg0.N) (h1 : t.val % 4 = 3) :
    outAt m c t = outC m c t h1 (accAt m c (t.val - 1) (pred_lt t)) := dif_pos h1

/-! ## The region invariant -/

/-- Before the first point: the accumulator at anything. Afterwards: the accumulator at what the point before left. In
    both the generator register at some state. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The proof data -/

/-- The arrays as the region finds them; each input's buffer at its block after the body; the output's at `outAt`; the
    invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves2_C (c : Dev nD) (t : Fin cfg0.N) (h1 : t.val % 4 = 3) :
    (dats m 0 c).leavesExact 2 t = owns (c : Thread nD τ) (ms0_2 t) fullShare (outAt m c t) := by
  unfold Dat.leavesExact; rw [liveAt0_2 t ((hcond0_1 t).mpr h1), after0_2]

set_option maxHeartbeats 4800000 in
/-- The body at any point. The inputs' buffers hold their blocks; the closed forms of the two conditions say which
    case the point is in; the invariant hands the body the accumulator at what the point before left (at anything
    before the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ, leaves0, leaves1]
  have hN : t.val < 32 := lt_of_lt_of_eq t.isLt (show cfg0.N = 32 from N_0)
  by_cases h0 : t.val % 4 = 0
  · rw [Dat.leavesExact_idle (dats m 0 c) 2 t (idleAt0_2 t (ncond1_of0 t h0)) (noFlush0_2 t (ncond1_of0 t h0))]
    rw [accAt_A m c t h0]
    unfold scrA
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩⟩
      iapply ((runA m c t h0).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scoverA m c t h0)
        iexact Hg
      isplitl [Ho]; · iexact Ho
      isplitl [H0]; · iexact H0
      isplitl [H1]; · iexact H1
      iexists _; iexact H2
    · rw [PhiS_castSucc m c t, PhiS_pos m c _ _ hz]
      iintro ⟨⟨HS0, Hg⟩, Ho, ⟨%d0, H0⟩, ⟨%d1, H1⟩, ⟨%d2, H2⟩⟩
      iapply ((runA m c t h0).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scoverA m c t h0)
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [leaves2_C m c t h1, outAt_C m c t h1, accAt_C m c t h1]
      unfold scrC outC
      rw [PhiS_castSucc m c t, PhiS_pos m c _ _ hz]
      iintro ⟨⟨HS0, Hg⟩, Ho, ⟨%d0, H0⟩, ⟨%d1, H1⟩, ⟨%d2, H2⟩⟩
      iapply ((runC m c t h1 _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scoverC m c t h1 _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverC m c t h1 _)
    · rw [Dat.leavesExact_idle (dats m 0 c) 2 t (idleAt0_2 t (ncond1_of t h1)) (noFlush0_2 t (ncond1_of t h1))]
      rw [accAt_B m c t h0 h1]
      unfold scrB
      rw [PhiS_castSucc m c t, PhiS_pos m c _ _ hz]
      iintro ⟨⟨HS0, Hg⟩, Ho, ⟨%d0, H0⟩, ⟨%d1, H1⟩, ⟨%d2, H2⟩⟩
      iapply ((runB m c t h0 h1 _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scoverB m c t h0 h1 _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the accumulator's contents are forgotten. -/
theorem hout (c : Dev nD) : (dats m 0 c).Φ (Fin.last cfg0.N) ⊢ Pipeline.ΦA spec0 c := by
  have hN : cfg0.N = 32 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  iintro ⟨HS0, Hg⟩
  isplitl [HS0]
  · iexists _; iexact HS0
  iexact Hg

/-! ## The run and the frame -/

set_option backward.isDefEq.respectTransparency.types false in
/-- Every weakly fair execution of the program terminates; at the end every array the region stages holds what the
    proof data compute, and every other unscoped buffer what the thirteen stretches leave in it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the program runs to the end without a fault and its five arguments end unchanged. Two are arrays the
    region stages as inputs; the other three bypass the region and no later operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).1 1).trans (((dats m 0 c).arrAt_in 1 rfl _).trans ((A_eq m c 1).trans (V_main_arg2 m c))),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Hand

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.KI.Payload.lean ====
/-
  The body's arithmetic read at an index, on the extended reals. The body's three stored values are: the zero block;
  the accumulator plus the product of the mask block (32 × 2048, after dropping its leading axis of extent one) with
  the feature block (2048 × 512); and the accumulator given back its leading axis. The casts to the narrower float
  format are the identity on the extended reals, and the matrix unit's product into a zero accumulator is the plain sum
  over the contracted axis.
-/
import proofs.«120339_j28896539967630_1_alg».proof.Proof.Gen.KernelIdeal.Skeleton
import proofs.«120339_j28896539967630_1_alg».proof.Proof.LibContraction
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen
open Idealize.ShloMosaic Idealize.ShloMosaic.TcCoe Idealize.ShloMosaic.ValueIdx

/-! The product's index arithmetic: the product contracts axis 1 of the left operand with axis 0 of the right one, has
    no batch axis, and keeps axis 0 of the left operand and axis 1 of the right one. At the position the number `p`
    names, the left operand is read at `(mm, p)` and the right one at `(p, d)`. -/

namespace Pay

open Cert.Lib.Contraction

/-- The left operand's free axis reads the entry's row. -/
theorem lhs_axis0 (mm : Fin 32) (d : Fin 512) (p : Fin 2048) :
    (dot_S32x2048_S2048x512_S32x512_1_0_0_1_n_n.lhsIdx (ix2 mm d) ((contrFin dot_S32x2048_S2048x512_S32x512_1_0_0_1_n_n (cl := 1) rfl 2048 rfl).symm p) 0).val = mm.val :=
  lhs_free dot_S32x2048_S2048x512_S32x512_1_0_0_1_n_n (nl := 0) rfl rfl (ix2 mm d) _ (by decide)

/-- The left operand's contracted axis reads the position. -/
theorem lhs_axis1 (mm : Fin 32) (d : Fin 512) (p : Fin 2048) :
    (dot_S32x2048_S2048x512_S32x512_1_0_0_1_n_n.lhsIdx (ix2 mm d) ((contrFin dot_S32x2048_S2048x512_S32x512_1_0_0_1_n_n (cl := 1) rfl 2048 rfl).symm p) 1).val = p.val :=
  lhs_contracted dot_S32x2048_S2048x512_S32x512_1_0_0_1_n_n (cl := 1) rfl 2048 rfl (ix2 mm d) p

/-- The right operand's contracted axis reads the position. -/
theorem rhs_axis0 (mm : Fin 32) (d : Fin 512) (p : Fin 2048) :
    (dot_S32x2048_S2048x512_S32x512_1_0_0_1_n_n.rhsIdx (ix2 mm d) ((contrFin dot_S32x2048_S2048x512_S32x512_1_0_0_1_n_n (cl := 1) rfl 2048 rfl).symm p) 0).val = p.val :=
  rhs_contracted dot_S32x2048_S2048x512_S32x512_1_0_0_1_n_n (cl := 1) (cr := 0) rfl rfl 2048 rfl (ix2 mm d) p

/-- The right operand's free axis reads the entry's column. -/
theorem rhs_axis1 (mm : Fin 32) (d : Fin 512) (p : Fin 2048) :
    (dot_S32x2048_S2048x512_S32x512_1_0_0_1_n_n.rhsIdx (ix2 mm d) ((contrFin dot_S32x2048_S2048x512_S32x512_1_0_0_1_n_n (cl := 1) rfl 2048 rfl).symm p) 1).val = d.val :=
  rhs_free dot_S32x2048_S2048x512_S32x512_1_0_0_1_n_n (nl := 0) (nr := 1) rfl rfl rfl rfl (ix2 mm d) _ (by decide)

/-- The matrix unit's product into the zero accumulator, at an entry: the sum over the contracted axis. -/
theorem matmul_zero_apply (l : FVec Ideal S32x2048 .bf16) (r : FVec Ideal S2048x512 .bf16) (mm : Fin 32) (d : Fin 512) :
    matmul dot_S32x2048_S2048x512_S32x512_1_0_0_1_n_n none l r (constant (F := Ideal) S32x512 .f32 0x00000000#32) (ix2 mm d)
      = ∑ p : Fin 2048, l (ix2 mm p) * r (ix2 p d) := by
  simp only [matmul]
  rw [Ideal.matmul_constant_zero_apply, sum_contr dot_S32x2048_S2048x512_S32x512_1_0_0_1_n_n (cl := 1) rfl 2048 rfl]
  refine Finset.sum_congr rfl fun p _ => ?_
  have el : dot_S32x2048_S2048x512_S32x512_1_0_0_1_n_n.lhsIdx (ix2 mm d) ((contrFin dot_S32x2048_S2048x512_S32x512_1_0_0_1_n_n (cl := 1) rfl 2048 rfl).symm p) = ix2 mm p :=
    funext fun a => Fin.ext (by
      match a with
      | ⟨0, _⟩ => exact lhs_axis0 mm d p
      | ⟨1, _⟩ => exact lhs_axis1 mm d p)
  have er : dot_S32x2048_S2048x512_S32x512_1_0_0_1_n_n.rhsIdx (ix2 mm d) ((contrFin dot_S32x2048_S2048x512_S32x512_1_0_0_1_n_n (cl := 1) rfl 2048 rfl).symm p) = ix2 p d :=
    funext fun a => Fin.ext (by
      match a with
      | ⟨0, _⟩ => exact rhs_axis0 mm d p
      | ⟨1, _⟩ => exact rhs_axis1 mm d p)
  rw [el, er]

end Pay

/-- The reset value is zero everywhere. -/
theorem pay1_apply (mm : Fin 32) (d : Fin 512) : k0_pay1 (F := Ideal) (ix2 mm d) = 0 := by
  unfold k0_pay1
  rw [shapeCast_self]
  exact Ideal.ofBits_zero_f32

/-- The accumulate step at an entry: what was there, plus the row of the mask block times the column of the feature block. -/
theorem pay2_apply (x0 : Vec Ideal S2048x512 .f32) (x1 : Vec Ideal S1x32x2048 .f32) (acc : Vec Ideal S32x512 .f32)
    (mm : Fin 32) (d : Fin 512) :
    k0_pay2 (F := Ideal) x0 x1 acc (ix2 mm d) = acc (ix2 mm d) + ∑ p : Fin 2048, x1 (ix3 (0 : Fin 1) mm p) * x0 (ix2 p d) := by
  unfold k0_pay2
  rw [shapeCast_self, addf_apply, Pay.matmul_zero_apply]
  refine congrArg (acc (ix2 mm d) + ·) (Finset.sum_congr rfl fun p _ => ?_)
  rw [truncf_apply, truncf_apply, shapeCast_1ab_ab_apply]

/-- The stored output block is the accumulator with a leading axis of extent one. -/
theorem pay3_apply (v : Vec Ideal S32x512 .f32) (mm : Fin 32) (d : Fin 512) :
    k0_pay3 (F := Ideal) v (ix3 (0 : Fin 1) mm d) = v (ix2 mm d) := by
  unfold k0_pay3
  exact shapeCast_ab_1ab_apply v _ 0 mm d

end Cert.KernelIdeal.Hand

end
-- ==== Proof.Spec.lean ====
/-
  The specification. Eight objects, each with 8192 points of 512 features (the rows `8192·b … 8192·b + 8191` of a
  65536 × 512 array) and 32 masks over its points. The segment sum of mask `mm` of object `b` in feature `d` is

      segSum[b, mm, d] = Σ_{q < 8192} mask[b, mm, q] · net[8192·b + q, d].

  The kernel computes it in four steps of 2048 points, adding each step's partial product to an accumulator that
  starts at zero; the reference computes it as one batched contraction. On the extended reals addition is commutative
  and associative and `0 + x = x`, so the four partial sums add up to the whole sum with no finiteness assumption.
-/
import Idealize.ShloMosaic.PureOps.Ideal
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

abbrev SNet : Shape := ⟨2, ![65536, 512]⟩
abbrev SMask : Shape := ⟨3, ![8, 32, 8192]⟩
abbrev SSum : Shape := ⟨3, ![8, 32, 512]⟩

/-- Point `q` of object `b` is row `8192·b + q` of the feature array. -/
def netRow (b : Fin 8) (q : Fin 8192) : Fin 65536 := ⟨b.val * 8192 + q.val, by omega⟩
/-- Point `p` of reduction step `k` is point `2048·k + p` of its object. -/
def stepCol (k : Fin 4) (p : Fin 2048) : Fin 8192 := ⟨k.val * 2048 + p.val, by omega⟩

/-- The segment sum at explicit coordinates. -/
def segSumAt (mask : SMask.Idx → EReal) (net : SNet.Idx → EReal) (b : Fin 8) (mm : Fin 32) (d : Fin 512) : EReal :=
  ∑ q : Fin 8192, mask (ix3 b mm q) * net (ix2 (netRow b q) d)

/-- The segment sums as one array. -/
def segSum (mask : SMask.Idx → EReal) (net : SNet.Idx → EReal) : SSum.Idx → EReal :=
  fun j => segSumAt mask net (j 0) (j 1) (j 2)

theorem segSum_ix3 (mask : SMask.Idx → EReal) (net : SNet.Idx → EReal) (b : Fin 8) (mm : Fin 32) (d : Fin 512) :
    segSum mask net (ix3 b mm d) = segSumAt mask net b mm d := rfl

/-- One reduction step's contribution: the product of the step's 2048 mask entries with its 2048 feature rows. -/
def stepSum (mask : SMask.Idx → EReal) (net : SNet.Idx → EReal) (b : Fin 8) (k : Fin 4) (mm : Fin 32) (d : Fin 512) : EReal :=
  ∑ p : Fin 2048, mask (ix3 b mm (stepCol k p)) * net (ix2 (netRow b (stepCol k p)) d)

/-- The accumulator after `n` reduction steps: zero, then each step's contribution added ON THE RIGHT of what was there. -/
def partialSum (mask : SMask.Idx → EReal) (net : SNet.Idx → EReal) (b : Fin 8) (mm : Fin 32) (d : Fin 512) : (n : ℕ) → n ≤ 4 → EReal
  | 0, _ => 0
  | n + 1, h => partialSum mask net b mm d n (Nat.le_of_succ_le h) + stepSum mask net b ⟨n, h⟩ mm d

theorem partialSum_zero (mask : SMask.Idx → EReal) (net : SNet.Idx → EReal) (b : Fin 8) (mm : Fin 32) (d : Fin 512) (h : 0 ≤ 4) :
    partialSum mask net b mm d 0 h = 0 := rfl

theorem partialSum_succ (mask : SMask.Idx → EReal) (net : SNet.Idx → EReal) (b : Fin 8) (mm : Fin 32) (d : Fin 512) (n : ℕ) (h : n + 1 ≤ 4) :
    partialSum mask net b mm d (n + 1) h = partialSum mask net b mm d n (Nat.le_of_succ_le h) + stepSum mask net b ⟨n, h⟩ mm d := rfl

/-- The 8192 points of an object are the 4 × 2048 points of the reduction steps: point `2048·k + p` is point `p` of
step `k`, and `(k, p) ↦ 2048·k + p` is a bijection of `Fin 4 × Fin 2048` with `Fin 8192`. -/
theorem sum_stepCol (f : Fin 8192 → EReal) :
    ∑ q : Fin 8192, f q = ∑ k : Fin 4, ∑ p : Fin 2048, f (stepCol k p) := by
  rw [← Fintype.sum_prod_type']
  refine (Fintype.sum_equiv (finProdFinEquiv (m := 4) (n := 2048)) _ _ ?_).symm
  rintro ⟨k, p⟩
  congr 1
  apply Fin.ext
  show k.val * 2048 + p.val = p.val + 2048 * k.val
  omega

/-- After the four steps the accumulator is the segment sum: the 8192 points are the 4 × 2048 points of the steps. -/
theorem partialSum_four (mask : SMask.Idx → EReal) (net : SNet.Idx → EReal) (b : Fin 8) (mm : Fin 32) (d : Fin 512) :
    partialSum mask net b mm d 4 le_rfl = segSumAt mask net b mm d := by
  rw [segSumAt, sum_stepCol (fun q => mask (ix3 b mm q) * net (ix2 (netRow b q) d)), Fin.sum_univ_four]
  simp only [partialSum, zero_add]
  rfl

end Cert.Spec

end
-- ==== Proof.KI.Value.lean ====
/-
  What the kernel region leaves in its result array, on the extended reals: the segment sums.

  Point `t` of the 8 × 4 grid is object `t / 4`, reduction step `t % 4`. Its feature block is rows
  `2048·t … 2048·t + 2047` of the feature array, its mask block is row-block `t / 4`, column-block `t % 4` of the masks.
  Each case of the body leaves in the accumulator the accumulate step's value over what was there (zero at step 0), so
  by induction on the point the accumulator after point `t` is the partial sum of the first `t % 4 + 1` steps of object
  `t / 4`. At step 3 that is the whole segment sum, and it is what the point writes back into block `t / 4` of the result
  array; the eight written blocks tile the array.
-/
import proofs.«120339_j28896539967630_1_alg».proof.Proof.KI.Frame
import proofs.«120339_j28896539967630_1_alg».proof.Proof.KI.Payload
import proofs.«120339_j28896539967630_1_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- The feature block and the mask block of a point, at their literal types. -/
abbrev nblk (c : Dev nD) (t : Fin cfg0.N) : Vec F S2048x512 .f32 := iblk m c 0 t
abbrev mblk (c : Dev nD) (t : Fin cfg0.N) : Vec F S1x32x2048 .f32 := iblk m c 1 t

/-! ## What each case leaves, as the body's stored values -/

/-- Step 0 leaves the accumulate step over the reset value. -/
theorem scrA_eq (c : Dev nD) (t : Fin cfg0.N) (h0 : t.val % 4 = 0) :
    scrA m c t h0 = k0_pay2 (nblk m c t) (mblk m c t) (k0_pay1 (F := F)) := by
  unfold scrA
  rw [View.read_writes_eq_canon _ _ _ (scoverA m c t h0)]
  unfold runA kernelRun0_A
  dsimp only
  sl_unfold_words
  rw [View.canon_cons_unit_zero (S := S32x512) hz2, View.readCov_unit_zero (S := S32x512) _ hz2]
  simp only [View.readAt_eq_ld, (hs0_0 t).read_unread, (hs0_1 t).read_unread, View.ld_unit_zero (S := S2048x512) hz2,
    View.ld_unit_zero (S := S1x32x2048) hz3, View.ld_unit_zero (S := S32x512) hz2]

/-- Steps 1 and 2 leave the accumulate step over what the point before left. -/
theorem scrB_eq (c : Dev nD) (t : Fin cfg0.N) (h0 : ¬t.val % 4 = 0) (h1 : ¬t.val % 4 = 3) (xs : Vec F S32x512 .f32) :
    scrB m c t h0 h1 xs = k0_pay2 (nblk m c t) (mblk m c t) xs := by
  unfold scrB
  rw [View.read_writes_eq_canon _ _ _ (scoverB m c t h0 h1 xs)]
  unfold runB kernelRun0_B
  dsimp only
  sl_unfold_words
  rw [View.canon_unit_zero hz2]
  simp only [View.readAt_eq_ld, (hs0_0 t).read_unread, (hs0_1 t).read_unread, (Memref.isWhole_whole cc0_scratch0).read_unread,
    View.ld_unit_zero (S := S2048x512) hz2, View.ld_unit_zero (S := S1x32x2048) hz3, View.ld_unit_zero (S := S32x512) hz2]

/-- So does step 3, -/
theorem scrC_eq (c : Dev nD) (t : Fin cfg0.N) (h1 : t.val % 4 = 3) (xs : Vec F S32x512 .f32) :
    scrC m c t h1 xs = k0_pay2 (nblk m c t) (mblk m c t) xs := by
  unfold scrC
  rw [View.read_writes_eq_canon _ _ _ (scoverC m c t h1 xs)]
  unfold runC kernelRun0_C
  dsimp only
  sl_unfold_words
  rw [View.canon_unit_zero hz2]
  simp only [View.readAt_eq_ld, (hs0_0 t).read_unread, (hs0_1 t).read_unread, (Memref.isWhole_whole cc0_scratch0).read_unread,
    View.ld_unit_zero (S := S2048x512) hz2, View.ld_unit_zero (S := S1x32x2048) hz3, View.ld_unit_zero (S := S32x512) hz2]

/-- which also stores that accumulator, with a leading axis of extent one, into the output block. -/
theorem outC_eq (c : Dev nD) (t : Fin cfg0.N) (h1 : t.val % 4 = 3) (xs : Vec F S32x512 .f32) :
    outC m c t h1 xs = k0_pay3 (k0_pay2 (nblk m c t) (mblk m c t) xs) := by
  unfold outC
  rw [View.read_writes_eq_canon _ _ _ (coverC m c t h1 xs)]
  unfold runC kernelRun0_C
  dsimp only
  sl_unfold_words
  rw [View.canon_unit_zero hz3]
  simp only [View.readAt_eq_ld, (hs0_0 t).read_unread, (hs0_1 t).read_unread, (Memref.isWhole_whole cc0_scratch0).read_unread,
    View.ld_unit_zero (S := S2048x512) hz2, View.ld_unit_zero (S := S1x32x2048) hz3, View.ld_unit_zero (S := S32x512) hz2,
    View.readCov_unit_zero (S := S32x512) _ hz2]

/-! ## The blocks, read off the arrays -/

/-- The windows' block indices over the grid: the feature window moves one block of 2048 rows per point; the mask
    window's block is (object, 0, step); the result window's block is (object, 0, 0). -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 3) = t.val / 4 ∧ win0_1.index t (1 : Fin 3) = 0 ∧ win0_1.index t (2 : Fin 3) = t.val % 4 :=
  (by decide +kernel : ∀ t : Fin grid0.N, win0_1.index t (0 : Fin 3) = t.val / 4 ∧ win0_1.index t (1 : Fin 3) = 0 ∧ win0_1.index t (2 : Fin 3) = t.val % 4)
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, win0_2.index t (0 : Fin 3) = t.val / 4 ∧ win0_2.index t (1 : Fin 3) = 0 ∧ win0_2.index t (2 : Fin 3) = 0)

/-- Entry `(p, d)` of point `t`'s feature block is entry `(2048·t + p, d)` of the feature array. -/
theorem nblk_apply (c : Dev nD) (t : Fin cfg0.N) (p : Fin 2048) (d : Fin 512) (r : Fin 65536) (hr : r.val = t.val * 2048 + p.val) :
    nblk m c t (ix2 p d) = V m c main_arg0 (ix2 r d) := by
  unfold nblk iblk
  rw [View.read_apply]
  show V m c main_arg0 _ = V m c main_arg0 _
  congr 1
  funext a; apply Fin.ext
  match a with
  | ⟨0, _⟩ => show win0_0.index t (0 : Fin 2) * 2048 + 1 * p.val = r.val; rw [(idx0 t).1, hr]; omega
  | ⟨1, _⟩ => show win0_0.index t (1 : Fin 2) * 512 + 1 * d.val = d.val; rw [(idx0 t).2]; omega

/-- Entry `(0, mm, p)` of point `t`'s mask block is entry `(t / 4, mm, 2048·(t % 4) + p)` of the masks. -/
theorem mblk_apply (c : Dev nD) (t : Fin cfg0.N) (mm : Fin 32) (p : Fin 2048) (b : Fin 8) (q : Fin 8192)
    (hb : b.val = t.val / 4) (hq : q.val = t.val % 4 * 2048 + p.val) :
    mblk m c t (ix3 (0 : Fin 1) mm p) = V m c main_arg2 (ix3 b mm q) := by
  unfold mblk iblk
  rw [View.read_apply]
  show V m c main_arg2 _ = V m c main_arg2 _
  congr 1
  funext a; apply Fin.ext
  match a with
  | ⟨0, _⟩ => show win0_1.index t (0 : Fin 3) * 1 + 1 * 0 = b.val; rw [(idx1 t).1, hb]; omega
  | ⟨1, _⟩ => show win0_1.index t (1 : Fin 3) * 32 + 1 * mm.val = mm.val; rw [(idx1 t).2.1]; omega
  | ⟨2, _⟩ => show win0_1.index t (2 : Fin 3) * 2048 + 1 * p.val = q.val; rw [(idx1 t).2.2, hq]; omega

/-! ## On the extended reals -/

section Extended

open Cert.Spec

variable (mI : (ℓ : Loc nD τ sig) → Buf (Elt Ideal) ℓ)

/-- The masks and the features as the region finds them. -/
abbrev maskArr (c : Dev nD) : SMask.Idx → EReal := V mI c main_arg2
abbrev netArr (c : Dev nD) : SNet.Idx → EReal := V mI c main_arg0

/-- The product the body adds at point `t`, at entry `(mm, d)`, is reduction step `t % 4`'s contribution for object `t / 4`. -/
theorem step_sum (c : Dev nD) (t : Fin cfg0.N) (mm : Fin 32) (d : Fin 512) (b : Fin 8) (k : Fin 4)
    (hb : b.val = t.val / 4) (hk : k.val = t.val % 4) :
    (∑ p : Fin 2048, mblk mI c t (ix3 (0 : Fin 1) mm p) * nblk mI c t (ix2 p d))
      = stepSum (maskArr mI c) (netArr mI c) b k mm d := by
  unfold stepSum
  refine Finset.sum_congr rfl fun p _ => ?_
  have hN : t.val < 32 := lt_of_lt_of_eq t.isLt (show cfg0.N = 32 from N_0)
  rw [mblk_apply mI c t mm p b (stepCol k p) hb (by show k.val * 2048 + p.val = _; rw [hk]),
    nblk_apply mI c t p d (netRow b (stepCol k p)) (by show b.val * 8192 + (k.val * 2048 + p.val) = _; rw [hb, hk]; omega)]

theorem partialSum_congr (mask : SMask.Idx → EReal) (net : SNet.Idx → EReal) (b : Fin 8) (mm : Fin 32) (d : Fin 512)
    {n n' : ℕ} (e : n = n') (h : n ≤ 4) (h' : n' ≤ 4) : partialSum mask net b mm d n h = partialSum mask net b mm d n' h' := by
  subst e; rfl

/-- THE ACCUMULATOR after position `n` is the partial sum of the first `n % 4 + 1` steps of object `n / 4`. -/
theorem accAt_eq (c : Dev nD) : ∀ (n : ℕ) (hn : n < cfg0.N) (b : Fin 8) (j : ℕ) (hj : j ≤ 4), b.val = n / 4 → j = n % 4 + 1 →
    ∀ (mm : Fin 32) (d : Fin 512), accAt mI c n hn (ix2 mm d) = partialSum (maskArr mI c) (netArr mI c) b mm d j hj
  | 0, hn, b, j, hj, hb, hjn, mm, d => by
    subst hjn
    rw [show accAt mI c 0 hn = scrA mI c ⟨0, hn⟩ (Nat.zero_mod _) from rfl, scrA_eq, pay2_apply, pay1_apply,
      step_sum mI c ⟨0, hn⟩ mm d b ⟨0, by decide⟩ hb rfl]
    rfl
  | n + 1, hn, b, j, hj, hb, hjn, mm, d => by
    subst hjn
    have hN : n + 1 < 32 := lt_of_lt_of_eq hn (show cfg0.N = 32 from N_0)
    rw [partialSum_succ]
    by_cases h0 : (n + 1) % 4 = 0
    · rw [accAt_A mI c ⟨n + 1, hn⟩ h0, scrA_eq, pay2_apply, pay1_apply,
        step_sum mI c ⟨n + 1, hn⟩ mm d b ⟨(n + 1) % 4, by omega⟩ hb rfl,
        partialSum_congr _ _ b mm d h0 _ (Nat.zero_le _), partialSum_zero]
    · have ih := accAt_eq c n (Nat.lt_of_succ_lt hn) b ((n + 1) % 4) (by omega) (by rw [hb]; omega) (by omega) mm d
      by_cases h1 : (n + 1) % 4 = 3
      · rw [accAt_C mI c ⟨n + 1, hn⟩ h1, scrC_eq, pay2_apply,
          step_sum mI c ⟨n + 1, hn⟩ mm d b ⟨(n + 1) % 4, by omega⟩ hb rfl]
        show accAt mI c n _ (ix2 mm d) + _ = _
        rw [ih]
      · rw [accAt_B mI c ⟨n + 1, hn⟩ h0 h1, scrB_eq, pay2_apply,
          step_sum mI c ⟨n + 1, hn⟩ mm d b ⟨(n + 1) % 4, by omega⟩ hb rfl]
        show accAt mI c n _ (ix2 mm d) + _ = _
        rw [ih]

/-! ## The result array -/

/-- What a step-3 point writes back is its block of the segment sums. -/
theorem flushed_eq (c : Dev nD) (t : Fin cfg0.N) (hf : (cfg0.win 2).flush t = true) :
    (dats mI 0 c).flushed 2 t = ((cfg0.win 2).blk t).view.read (Elt Ideal) (segSum (maskArr mI c) (netArr mI c)) := by
  have h3 : t.val % 4 = 3 := (flush0_2 t).mp hf
  have hN : t.val < 32 := lt_of_lt_of_eq t.isLt (show cfg0.N = 32 from N_0)
  show (cfg0.win 2).cut (grid0.coords t) ((dats mI 0 c).after 2 t) = _
  rw [after0_2, outAt_C mI c t h3, outC_eq, ← scrC_eq mI c t h3, ← accAt_C mI c t h3]
  funext y
  obtain ⟨z, mm, d, rfl⟩ : ∃ (z : Fin 1) (mm : Fin 32) (d : Fin 512), y = ix3 z mm d := ⟨y 0, y 1, y 2, eq_ix3 y⟩
  obtain rfl : z = 0 := Subsingleton.elim _ _
  show k0_pay3 (F := Ideal) (accAt mI c t.val t.isLt) (ix3 (0 : Fin 1) mm d) = segSum (maskArr mI c) (netArr mI c) (((cfg0.win 2).blk t).view.emb (ix3 (0 : Fin 1) mm d))
  have hemb : ((cfg0.win 2).blk t).view.emb (ix3 (0 : Fin 1) mm d) = ix3 (⟨t.val / 4, by omega⟩ : Fin 8) mm d := by
    funext a; apply Fin.ext
    match a with
    | ⟨0, _⟩ => show win0_2.index t (0 : Fin 3) * 1 + 1 * 0 = t.val / 4; rw [(idx2 t).1]; omega
    | ⟨1, _⟩ => show win0_2.index t (1 : Fin 3) * 32 + 1 * mm.val = mm.val; rw [(idx2 t).2.1]; omega
    | ⟨2, _⟩ => show win0_2.index t (2 : Fin 3) * 512 + 1 * d.val = d.val; rw [(idx2 t).2.2]; omega
  rw [hemb, segSum_ix3, pay3_apply, accAt_eq mI c t.val t.isLt ⟨t.val / 4, by omega⟩ 4 le_rfl rfl (by omega) mm d, partialSum_four]

theorem mem_blk2 (t : Fin cfg0.N) (i : S8x32x512.Idx) :
    i ∈ ((cfg0.win 2).blk t).view.set ↔ ∀ a : Fin 3, win0_2.index t a * S1x32x512.size a ≤ (i a).val ∧ (i a).val < win0_2.index t a * S1x32x512.size a + S1x32x512.size a := by
  show i ∈ ((View.whole main_v0).slice (win0_2.rect t)).set ↔ _
  rw [View.set_slice_whole, Rect.mem_set_unit]
  exact Iff.rfl

/-- THE RESULT ARRAY after the region: the segment sums. Entry `(b, mm, d)` is in the block point `4·b + 3` writes back. -/
theorem sum_final (c : Dev nD) : (dats mI 0 c).arrAt 2 cfg0.N = segSum (maskArr mI c) (netArr mI c) :=
  (dats mI 0 c).arrAt_eq_of_cover 2 (segSum (maskArr mI c) (netArr mI c)) (flushed_eq mI c) fun i => by
    have h0 : (i 0).val < 8 := (i 0).isLt
    have h1 : (i 1).val < 32 := (i 1).isLt
    have h2 : (i 2).val < 512 := (i 2).isLt
    have hlt : 4 * (i 0).val + 3 < cfg0.N := lt_of_lt_of_eq (by omega : 4 * (i 0).val + 3 < 32) N_0.symm
    refine ⟨⟨4 * (i 0).val + 3, hlt⟩, (flush0_2 _).mpr (by show (4 * (i 0).val + 3) % 4 = 3; omega), ?_⟩
    rw [mem_blk2]
    obtain ⟨e0, e1, e2⟩ := idx2 ⟨4 * (i 0).val + 3, hlt⟩
    have e0' : win0_2.index ⟨4 * (i 0).val + 3, hlt⟩ (0 : Fin 3) = (i 0).val := by rw [e0]; show (4 * (i 0).val + 3) / 4 = _; omega
    intro a
    match a with
    | ⟨0, _⟩ => show win0_2.index _ (0 : Fin 3) * 1 ≤ (i 0).val ∧ (i 0).val < win0_2.index _ (0 : Fin 3) * 1 + 1; rw [e0']; omega
    | ⟨1, _⟩ => show win0_2.index _ (1 : Fin 3) * 32 ≤ (i 1).val ∧ (i 1).val < win0_2.index _ (1 : Fin 3) * 32 + 32; rw [e1]; omega
    | ⟨2, _⟩ => show win0_2.index _ (2 : Fin 3) * 512 ≤ (i 2).val ∧ (i 2).val < win0_2.index _ (2 : Fin 3) * 512 + 512; rw [e2]; omega

end Extended

end Cert.KernelIdeal.Hand

end
-- ==== Proof.RefSide.lean ====
/-
  The reference's batched contraction is the segment sum. The reference reshapes the 65536 × 512 feature array to
  8 × 8192 × 512 (row `8192·b + q` becomes entry `(b, q)`) and contracts the point axis of the masks with it, batched
  over the objects: entry `(b, mm, d)` is the sum over `q` of `mask[b, mm, q] · net[8192·b + q, d]`.
-/
import proofs.«120339_j28896539967630_1_alg».proof.Proof.Gen.ReferenceIdeal
import proofs.«120339_j28896539967630_1_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Gen Idealize.ShloMosaic Idealize.ShloMosaic.TcCoe Idealize.ShloMosaic.ValueIdx

/-! ### The operands' indices of the contraction, axis by axis

Output entry `(b, mm, d)` and contraction index `k` read the masks at `(b, mm, k)` (batch axis, free axis,
contracted axis) and the reshaped features at `(b, k, d)` (batch axis, contracted axis, free axis). -/

theorem lhs_axis0 (i : S8x32x512.Idx) (q : dot_S8x32x8192_S8x8192x512_S8x32x512_2_1_1_2_0_0.contr.Idx) :
    (dot_S8x32x8192_S8x8192x512_S8x32x512_2_1_1_2_0_0.lhsIdx i q 0).val = (i 0).val := by
  unfold DotDims.lhsIdx
  rw [dif_pos (show (0 : Fin S8x32x8192.rank) ∈ dot_S8x32x8192_S8x8192x512_S8x32x512_2_1_1_2_0_0.lhsBatch by decide)]
  rfl

theorem lhs_axis1 (i : S8x32x512.Idx) (q : dot_S8x32x8192_S8x8192x512_S8x32x512_2_1_1_2_0_0.contr.Idx) :
    (dot_S8x32x8192_S8x8192x512_S8x32x512_2_1_1_2_0_0.lhsIdx i q 1).val = (i 1).val := by
  unfold DotDims.lhsIdx
  rw [dif_neg (show ¬(1 : Fin S8x32x8192.rank) ∈ dot_S8x32x8192_S8x8192x512_S8x32x512_2_1_1_2_0_0.lhsBatch by decide),
    dif_pos (show (1 : Fin S8x32x8192.rank) ∈ dot_S8x32x8192_S8x8192x512_S8x32x512_2_1_1_2_0_0.lhsNonContracting by decide)]
  rfl

theorem lhs_axis2 (i : S8x32x512.Idx) (q : dot_S8x32x8192_S8x8192x512_S8x32x512_2_1_1_2_0_0.contr.Idx) :
    (dot_S8x32x8192_S8x8192x512_S8x32x512_2_1_1_2_0_0.lhsIdx i q 2).val = (q ⟨0, by decide⟩).val :=
  dot_S8x32x8192_S8x8192x512_S8x32x512_2_1_1_2_0_0.lhsIdx_val_of_single rfl i q

theorem rhs_axis0 (i : S8x32x512.Idx) (q : dot_S8x32x8192_S8x8192x512_S8x32x512_2_1_1_2_0_0.contr.Idx) :
    (dot_S8x32x8192_S8x8192x512_S8x32x512_2_1_1_2_0_0.rhsIdx i q 0).val = (i 0).val := by
  unfold DotDims.rhsIdx
  rw [dif_pos (show (0 : Fin S8x8192x512.rank) ∈ dot_S8x32x8192_S8x8192x512_S8x32x512_2_1_1_2_0_0.rhsBatch by decide)]
  rfl

theorem rhs_axis1 (i : S8x32x512.Idx) (q : dot_S8x32x8192_S8x8192x512_S8x32x512_2_1_1_2_0_0.contr.Idx) :
    (dot_S8x32x8192_S8x8192x512_S8x32x512_2_1_1_2_0_0.rhsIdx i q 1).val = (q ⟨0, by decide⟩).val :=
  dot_S8x32x8192_S8x8192x512_S8x32x512_2_1_1_2_0_0.rhsIdx_val_of_single rfl i q

theorem rhs_axis2 (i : S8x32x512.Idx) (q : dot_S8x32x8192_S8x8192x512_S8x32x512_2_1_1_2_0_0.contr.Idx) :
    (dot_S8x32x8192_S8x8192x512_S8x32x512_2_1_1_2_0_0.rhsIdx i q 2).val = (i 2).val := by
  unfold DotDims.rhsIdx
  rw [dif_neg (show ¬(2 : Fin S8x8192x512.rank) ∈ dot_S8x32x8192_S8x8192x512_S8x32x512_2_1_1_2_0_0.rhsBatch by decide),
    dif_pos (show (2 : Fin S8x8192x512.rank) ∈ dot_S8x32x8192_S8x8192x512_S8x32x512_2_1_1_2_0_0.rhsNonContracting by decide)]
  rfl

/-- Entry `(b, k, d)` of the reshaped array is entry `(8192·b + k, d)` of the feature array: both sit at the flat
row-major position `(8192·b + k)·512 + d`. -/
theorem reshape_apply (net : (⟨S65536x512, .f32⟩ : BufTy).Contents (Elt Ideal)) (b : Fin 8) (k : Fin 8192) (d : Fin 512) :
    shapeCast S8x8192x512 net shapeCasts_S65536x512_S8x8192x512 (ix3 b k d) = net (ix2 (Cert.Spec.netRow b k) d) := by
  refine shapeCast_apply net shapeCasts_S65536x512_S8x8192x512 (ix3 b k d) (ix2 (Cert.Spec.netRow b k) d) ?_
  rewrite [Shape.rowMajor_val_two, Shape.rowMajor_val_three]
  rfl

/-- The contraction as the reference's result term spells it, at the ideal instance, is the segment sum. -/
theorem einsum_eq (mask : (⟨S8x32x8192, .f32⟩ : BufTy).Contents (Elt Ideal)) (net : (⟨S65536x512, .f32⟩ : BufTy).Contents (Elt Ideal)) :
    Host.dotGeneral (F := Ideal) (φ₁ := .f32) (φ₂ := .f32) dot_S8x32x8192_S8x8192x512_S8x32x512_2_1_1_2_0_0 none mask
        (shapeCast S8x8192x512 net shapeCasts_S65536x512_S8x8192x512)
      = Cert.Spec.segSum mask net := by
  funext i
  obtain ⟨b, mm, d, rfl⟩ : ∃ (b : Fin 8) (mm : Fin 32) (d : Fin 512), i = ix3 b mm d :=
    ⟨i 0, i 1, i 2, eq_ix3 i⟩
  simp only [Host.dotGeneral]
  rw [Ideal.dotGeneral_apply,
    ← Equiv.sum_comp (ValueIdx.contrEquiv1 dot_S8x32x8192_S8x8192x512_S8x32x512_2_1_1_2_0_0 8192 rfl rfl).symm,
    Cert.Spec.segSum_ix3, Cert.Spec.segSumAt]
  refine Finset.sum_congr rfl fun k _ => ?_
  have hk := ValueIdx.contrEquiv1_symm_val dot_S8x32x8192_S8x8192x512_S8x32x512_2_1_1_2_0_0 8192 rfl rfl k
  -- the masks are read at `(b, mm, k)`
  have el : dot_S8x32x8192_S8x8192x512_S8x32x512_2_1_1_2_0_0.lhsIdx (ix3 b mm d)
      ((ValueIdx.contrEquiv1 dot_S8x32x8192_S8x8192x512_S8x32x512_2_1_1_2_0_0 8192 rfl rfl).symm k) = ix3 b mm k :=
    funext fun a => Fin.ext (by
      match a with
      | ⟨0, _⟩ => exact lhs_axis0 _ _
      | ⟨1, _⟩ => exact lhs_axis1 _ _
      | ⟨2, _⟩ => exact (lhs_axis2 _ _).trans hk)
  -- the reshaped features are read at `(b, k, d)`
  have er : dot_S8x32x8192_S8x8192x512_S8x32x512_2_1_1_2_0_0.rhsIdx (ix3 b mm d)
      ((ValueIdx.contrEquiv1 dot_S8x32x8192_S8x8192x512_S8x32x512_2_1_1_2_0_0 8192 rfl rfl).symm k) = ix3 b k d :=
    funext fun a => Fin.ext (by
      match a with
      | ⟨0, _⟩ => exact rhs_axis0 _ _
      | ⟨1, _⟩ => exact (rhs_axis1 _ _).trans hk
      | ⟨2, _⟩ => exact rhs_axis2 _ _)
  rw [el, er, reshape_apply]

end Cert.ReferenceIdeal.RefValue

end
-- ==== Proof.TailAgree.lean ====
/-
  The two programs end with the same chain of host operations. After the segment sums both programs compute, by the
  same 134 operations in the same order, the per-mask averages, the 256 × 256 logits, the two log-softmax losses and
  their mean: the reference program's list is its batched contraction (a reshape of the first argument and the
  dot_general) followed by exactly these 134. So whatever the two programs' buffers hold when the chains start, if the
  three arguments the chain reads are the same on both sides and the kernel program's segment-sum buffer holds what the
  reference's contraction buffer holds, the two chains end with the same result.

  Both sides are folds of the operations' results over the buffer contents. Each fold is read as the composed term of
  its operations at the four buffers it starts from; the two terms are then the same term up to the names of the shapes,
  of the shape facts and of the contraction and gather records, which unfold to the same data.
-/
import proofs.«120339_j28896539967630_1_alg».proof.Proof.Gen.KernelIdeal.Launch
import proofs.«120339_j28896539967630_1_alg».proof.Proof.RefRun
import Idealize.ShloMosaic.Lib.StableHlo.Run

set_option maxRecDepth 16384

noncomputable section

namespace Cert.Proof.Tail

open Idealize.ShloMosaic Idealize.ShloMosaic.TcCoe Idealize.SL.Sem Idealize.ShloMosaic.StableHlo

set_option maxHeartbeats 16000000 in
/-- The kernel program's host chain from ANY buffer contents `W` and the reference program's operations after its
    contraction from ANY buffer contents `V'` end with the same result, whenever `W` and `V'` agree on the three
    arguments the chain reads and the kernel program's segment-sum buffer holds what the reference's contraction
    buffer holds. For any float values. -/
theorem tail_agree {F : FTy → Type} [FloatOps F] (W : Valuation Cert.KernelIdeal.τ Cert.KernelIdeal.sig (Elt F))
    (V' : Valuation Cert.ReferenceIdeal.τ Cert.ReferenceIdeal.sig (Elt F))
    (h1 : W (Proc.devRef .tc Cert.KernelIdeal.main_arg1) = V' (Proc.devRef .tc Cert.ReferenceIdeal.main_arg1))
    (h2 : W (Proc.devRef .tc Cert.KernelIdeal.main_arg2) = V' (Proc.devRef .tc Cert.ReferenceIdeal.main_arg2))
    (h3 : W (Proc.devRef .tc Cert.KernelIdeal.main_arg3) = V' (Proc.devRef .tc Cert.ReferenceIdeal.main_arg3))
    (h0 : W (Proc.devRef .tc Cert.KernelIdeal.main_v0) = V' (Proc.devRef .tc Cert.ReferenceIdeal.main_v1)) :
    StableHlo.after (List.flatten [Cert.KernelIdeal.Gen.hostOps1 (F := F), Cert.KernelIdeal.Gen.hostOps1_1, Cert.KernelIdeal.Gen.hostOps1_2,
        Cert.KernelIdeal.Gen.hostOps1_3, Cert.KernelIdeal.Gen.hostOps1_4, Cert.KernelIdeal.Gen.hostOps1_5, Cert.KernelIdeal.Gen.hostOps1_6,
        Cert.KernelIdeal.Gen.hostOps1_7, Cert.KernelIdeal.Gen.hostOps1_8, Cert.KernelIdeal.Gen.hostOps1_9, Cert.KernelIdeal.Gen.hostOps1_10,
        Cert.KernelIdeal.Gen.hostOps1_11, Cert.KernelIdeal.Gen.hostOps1_12]) W (Proc.devRef .tc Cert.KernelIdeal.main_v74)
      = StableHlo.after ((Cert.ReferenceIdeal.ValueP.ops (F := F)).drop 2) V' (Proc.devRef .tc Cert.ReferenceIdeal.main_v75) := by
  -- the two lists as literal lists of operations: the thirteen stretches joined, the reference's list less its first two
  simp only [Cert.KernelIdeal.Gen.hostOps1, Cert.KernelIdeal.Gen.hostOps1_1, Cert.KernelIdeal.Gen.hostOps1_2, Cert.KernelIdeal.Gen.hostOps1_3,
    Cert.KernelIdeal.Gen.hostOps1_4, Cert.KernelIdeal.Gen.hostOps1_5, Cert.KernelIdeal.Gen.hostOps1_6, Cert.KernelIdeal.Gen.hostOps1_7,
    Cert.KernelIdeal.Gen.hostOps1_8, Cert.KernelIdeal.Gen.hostOps1_9, Cert.KernelIdeal.Gen.hostOps1_10, Cert.KernelIdeal.Gen.hostOps1_11,
    Cert.KernelIdeal.Gen.hostOps1_12,
    Cert.ReferenceIdeal.ValueP.ops]
  simp only [List.drop_succ_cons, List.drop_zero]
  simp only [List.flatten_cons, List.flatten_nil, List.append_nil, List.cons_append, List.nil_append]
  -- each fold as the composed term of its operations, over the contents of the four buffers it starts from
  after_results_simp
  -- the four buffers hold the same on both sides; the two terms are then the same
  rw [h1, h2, h3, h0]
  rfl

end Cert.Proof.Tail

end
-- ==== Proof.Bridge.lean ====
/-
  The bridge. When the kernel program's host chain starts, its buffers hold: the arguments as launched (two of them
  are arrays the region stages as inputs and hands back unchanged), and, in the region's result array, the segment sums.
  When the reference's chain of the same 134 operations starts, its buffers hold the same arguments and, after its two
  head operations, the batched contraction, which is the segment sums too. The two chains then end with equal results.
-/
import proofs.«120339_j28896539967630_1_alg».proof.Proof.KI.Value
import proofs.«120339_j28896539967630_1_alg».proof.Proof.RefSide
import proofs.«120339_j28896539967630_1_alg».proof.Proof.RefRun
import proofs.«120339_j28896539967630_1_alg».proof.Proof.TailAgree

set_option maxRecDepth 16384

noncomputable section

namespace Cert.Proof.Bridge

open Idealize.ShloMosaic Idealize.ShloMosaic.TcCoe Idealize.SL.Sem Idealize.ShloMosaic.StableHlo
open Idealize.ShloMosaic.Pipeline (Dat)

/-- A valuation of the reference's buffers. -/
abbrev RV := Valuation Cert.ReferenceIdeal.τ Cert.ReferenceIdeal.sig (Elt Ideal)

/-- The reference's two head operations: the reshape of the features and the batched contraction. -/
abbrev headR : List (HloOp Cert.ReferenceIdeal.τ Cert.ReferenceIdeal.sig (Elt Ideal)) := (Cert.ReferenceIdeal.ValueP.ops (F := Ideal)).take 2

/-- They leave the arguments the chain reads untouched, -/
theorem head_arg1 (V' : RV) : StableHlo.after headR V' (Proc.devRef .tc Cert.ReferenceIdeal.main_arg1) = V' (Proc.devRef .tc Cert.ReferenceIdeal.main_arg1) := by
  simp only [headR, Cert.ReferenceIdeal.ValueP.ops, List.take_succ_cons, List.take_zero]
  after_results <;> rfl
theorem head_arg2 (V' : RV) : StableHlo.after headR V' (Proc.devRef .tc Cert.ReferenceIdeal.main_arg2) = V' (Proc.devRef .tc Cert.ReferenceIdeal.main_arg2) := by
  simp only [headR, Cert.ReferenceIdeal.ValueP.ops, List.take_succ_cons, List.take_zero]
  after_results <;> rfl
theorem head_arg3 (V' : RV) : StableHlo.after headR V' (Proc.devRef .tc Cert.ReferenceIdeal.main_arg3) = V' (Proc.devRef .tc Cert.ReferenceIdeal.main_arg3) := by
  simp only [headR, Cert.ReferenceIdeal.ValueP.ops, List.take_succ_cons, List.take_zero]
  after_results <;> rfl
/-- and put the segment sums into the contraction's buffer. -/
theorem head_v1 (V' : RV) : StableHlo.after headR V' (Proc.devRef .tc Cert.ReferenceIdeal.main_v1)
    = Cert.Spec.segSum (V' (Proc.devRef .tc Cert.ReferenceIdeal.main_arg2)) (V' (Proc.devRef .tc Cert.ReferenceIdeal.main_arg0)) := by
  simp only [headR, Cert.ReferenceIdeal.ValueP.ops, List.take_succ_cons, List.take_zero]
  refine Eq.trans ?_ (Cert.ReferenceIdeal.RefValue.einsum_eq _ _)
  after_results <;> rfl

open Cert.KernelIdeal Cert.KernelIdeal.Gen Cert.KernelIdeal.Hand in
/-- THE KERNEL PROGRAM'S RESULT is the reference's: its host chain, run from the buffers the region leaves, ends in the
    result buffer with what the reference's whole operation list leaves in its own, when the two memories agree on
    the arguments. -/
theorem kernel_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Pipeline.afterTail₀ Cert.KernelIdeal.cfgs (dats m) 0 (V0 m) tailOps c Cert.KernelIdeal.main_v74
      = StableHlo.after (Cert.ReferenceIdeal.ValueP.ops (F := Ideal)) (fun b => m' (c, b)) (Proc.devRef .tc Cert.ReferenceIdeal.main_v75) := by
  have e : StableHlo.after (Cert.ReferenceIdeal.ValueP.ops (F := Ideal)) (fun b => m' (c, b)) (Proc.devRef .tc Cert.ReferenceIdeal.main_v75)
      = StableHlo.after ((Cert.ReferenceIdeal.ValueP.ops (F := Ideal)).drop 2) (StableHlo.after headR (fun b => m' (c, b))) (Proc.devRef .tc Cert.ReferenceIdeal.main_v75) := by
    rw [← StableHlo.after_append, List.take_append_drop]
  rw [e]
  unfold Pipeline.afterTail₀
  refine Cert.Proof.Tail.tail_agree (F := Ideal) _ _ ?h1 ?h2 ?h3 ?h0
  case h1 =>
    rw [head_arg1]
    exact (Pipeline.withArrays_of_ne _ c (V0 m c) _ Cert.KernelIdeal.main_arg1 (by decide)).trans a1.symm
  case h2 =>
    rw [head_arg2]
    exact (Pipeline.withArrays_arr spec0 launch0.win.arr_inj c (V0 m c) _ 1).trans
      (((dats m 0 c).arrAt_in 1 rfl _).trans ((A_eq m c 1).trans ((V_main_arg2 m c).trans a2.symm)))
  case h3 =>
    rw [head_arg3]
    exact (Pipeline.withArrays_of_ne _ c (V0 m c) _ Cert.KernelIdeal.main_arg3 (by decide)).trans a3.symm
  case h0 =>
    rw [head_v1]
    refine (Pipeline.withArrays_arr spec0 launch0.win.arr_inj c (V0 m c) _ 2).trans ((sum_final m c).trans ?_)
    show Cert.Spec.segSum (V m c Cert.KernelIdeal.main_arg2) (V m c Cert.KernelIdeal.main_arg0) = _
    rw [V_main_arg2, V_main_arg0, ← a2, ← a0]

open Cert.KernelIdeal Cert.KernelIdeal.Gen Cert.KernelIdeal.Hand in
/-- At the end of the kernel program's run its five arguments are as launched: two are arrays the region stages as
    inputs, the other three bypass the region and no later operation writes them. -/
theorem kernel_args (m : (ℓ : Loc Cert.KernelIdeal.nD Cert.KernelIdeal.τ Cert.KernelIdeal.sig) → Buf (Elt Ideal) ℓ)
    (r : PUnit × MemSt Cert.KernelIdeal.nD Cert.KernelIdeal.τ Cert.KernelIdeal.sig (Elt Ideal))
    (h : Pipeline.FramePost Cert.KernelIdeal.cfgs (dats m) 0 (Pipeline.afterTail₀ Cert.KernelIdeal.cfgs (dats m) 0 (V0 m) tailOps) r)
    (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨((h c).1 0).trans (((dats m 0 c).arrAt_in 0 rfl _).trans ((A_eq m c 0).trans (V_main_arg0 m c))),
   ((h c).2 Cert.KernelIdeal.main_arg1 (Pipeline.mem_restRefs_of Cert.KernelIdeal.main_arg1 (by decide) (by decide))).trans (W_main_arg1 m (dats m) c),
   ((h c).1 1).trans (((dats m 0 c).arrAt_in 1 rfl _).trans ((A_eq m c 1).trans (V_main_arg2 m c))),
   ((h c).2 Cert.KernelIdeal.main_arg3 (Pipeline.mem_restRefs_of Cert.KernelIdeal.main_arg3 (by decide) (by decide))).trans (W_main_arg3 m (dats m) c),
   ((h c).2 Cert.KernelIdeal.main_arg4 (Pipeline.mem_restRefs_of Cert.KernelIdeal.main_arg4 (by decide) (by decide))).trans (W_main_arg4 m (dats m) c)⟩

end Cert.Proof.Bridge

end
-- ==== Proof.lean ====
/-
  The certificate. Eight objects of 8192 points with 512 features each and 32 visibility masks per object; the
  program sums, for every mask, the features of the points it covers (the segment sums), divides by the mask sizes,
  takes the 256 × 256 logits against the mask embeddings, and returns the mean of the two diagonal log-softmax losses.

  The kernel program computes the segment sums in one kernel region over an 8 × 4 grid: four steps of 2048 points per
  object are accumulated in a scratch block that is reset at step 0 and stored at step 3. The reference computes them
  as one batched contraction. On the extended reals the four partial sums add up to the whole sum (addition there is
  commutative and associative, and zero is its unit), so no finiteness is used. Everything after the segment sums is
  the same chain of 134 host operations in both programs, run from agreeing buffers.

  The three frames: the two kernel programs run their region by the launch theorem for a region followed by host
  operations, with the body's three symbolic runs; the reference is a straight line of host operations.
-/
import proofs.«120339_j28896539967630_1_alg».proof.Defs
import proofs.«120339_j28896539967630_1_alg».proof.Proof.Gen.Kernel
import proofs.«120339_j28896539967630_1_alg».proof.Proof.Gen.KernelIdeal
import proofs.«120339_j28896539967630_1_alg».proof.Proof.Gen.ReferenceIdeal
import proofs.«120339_j28896539967630_1_alg».proof.Proof.Gen.Pre_finite_inputs
import proofs.«120339_j28896539967630_1_alg».proof.Proof.K.Frame
import proofs.«120339_j28896539967630_1_alg».proof.Proof.KI.Frame
import proofs.«120339_j28896539967630_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level program runs to the end and leaves its arguments unchanged. -/
theorem frame_k : Cert.frame_Kernel := fun m ρ _ => Cert.Kernel.Hand.frame m ρ

/-- So does the program read on the extended reals. -/
theorem frame_ki : Cert.frame_KernelIdeal := fun m ρ _ => Cert.KernelIdeal.Hand.frame m ρ

/-- The reference is a straight line of host operations over buffers of its own. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments the two programs end with equal results: the kernel program's region leaves
    the segment sums, the reference's contraction is the segment sums, and the rest is one chain of operations. -/
theorem algebraic : Cert.algebraic_KernelIdeal_ReferenceIdeal := by
  intro m ρ m' ρ' _ hagree
  refine ⟨fun c => StableHlo.after (Cert.ReferenceIdeal.ValueP.ops (F := Ideal)) (fun b => m' (c, b)) (Proc.devRef .tc Cert.ReferenceIdeal.main_v75), ?_, ?_⟩
  · refine (θ_run Cert.KernelIdeal.defs _ _).mono (fun r h c => ?_) (Cert.KernelIdeal.Hand.run_main m ρ)
    obtain ⟨a0, a1, a2, a3, a4⟩ := hagree c
    exact ⟨((h c).2 Cert.KernelIdeal.main_v74 (Pipeline.mem_restRefs_of Cert.KernelIdeal.main_v74 (by decide) (by decide))).trans
        (Cert.Proof.Bridge.kernel_result m m' c a0 a1 a2 a3), Cert.Proof.Bridge.kernel_args m r h c⟩
  · exact Cert.ReferenceIdeal.ValueP.run (F := Ideal) m' ρ'

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
